-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v74_1)) (v1 : (c : Dev Cert.KernelIdeal.nD) → Buf (Elt Ideal) ((c.tc : Thread Cert.KernelIdeal.nD Cert.KernelIdeal.τ).loc Cert.KernelIdeal.main_v74_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74_1) = v0 c
          ∧ r.2.mem ((c.tc : Thread Cert.KernelIdeal.nD Cert.KernelIdeal.τ).loc Cert.KernelIdeal.main_v74_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_v196) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S2x32x32 : Shape := ⟨3, ![2, 32, 32]⟩
abbrev S32 : Shape := ⟨1, ![32]⟩
abbrev S32x4 : Shape := ⟨2, ![32, 4]⟩
abbrev S4 : Shape := ⟨1, ![4]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S2x32x32 : S_.BroadcastsInDim S2x32x32 (![] : Fin 0 → Fin S2x32x32.rank)
  reducesTo_S2x32x32_S_d0_1_2 : S2x32x32.ReducesTo [0, 1, 2] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_arg15 : FVec F S32 .f32) (main_arg16 : FVec F S32x4 .f32) (main_arg17 : FVec F S4 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x4 .f32 := Host.absf main_arg16
  let main_cst_28 : FVec F S_ .f32 := constant S_ .f32 0x7F800000#32
  let main_v75 : FVec F S32x4 .f32 := broadcastInDim S32x4 ![] bcast_S_S32x4 main_cst_28
  let main_v76 : IVec S32x4 1 := cmpf .olt main_v74 main_v75
  let main_c_29 : IVec S_ 1 := constantI S_ 1 1#1
  let main_v77 : IVec S_ 1 := (fun x v => Host.reduce IntOp.andi x v reducesTo_S32x4_S_d0_1 h_S_) main_v76 main_c_29
  let main_v78 : IVec S_ 1 := andi main_v73 main_v77
  let main_v79 : FVec F S4 .f32 := Host.absf main_arg17
  let main_cst_30 : FVec F S_ .f32 := constant S_ .f32 0x7F800000#32
  let main_v80 : FVec F S4 .f32 := broadcastInDim S4 ![] bcast_S_S4 main_cst_30
  let main_v81 : IVec S4 1 := cmpf .olt main_v79 main_v80
  let main_c_31 : IVec S_ 1 := constantI S_ 1 1#1
  let main_v82 : IVec S_ 1 := (fun x v => Host.reduce IntOp.andi x v reducesTo_S4_S_d0 h_S_) main_v81 main_c_31
  let main_v83 : IVec S_ 1 := andi main_v78 main_v82
  main_v83

def fn_part3 {F : FTy → Type} [FloatOps F] (main_arg12 : FVec F S2x32x32 .f32) (main_arg13 : FVec F S32 .f32) (main_arg14 : FVec F S2x32x32 .f32) (main_arg15 : FVec F S32 .f32) (main_arg16 : FVec F S32x4 .f32) (main_arg17 : FVec F S4 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S2x32x32 .f32 := Host.absf main_arg12
  let main_cst_20 : FVec F S_ .f32 := constant S_ .f32 0x7F800000#32
  let main_v55 : FVec F S2x32x32 .f32 := broadcastInDim S2x32x32 ![] bcast_S_S2x32x32 main_cst_20
  let main_v56 : IVec S2x32x32 1 := cmpf .olt main_v54 main_v55
  let main_c_21 : IVec S_ 1 := constantI S_ 1 1#1
  let main_v57 : IVec S_ 1 := (fun x v => Host.reduce IntOp.andi x v reducesTo_S2x32x32_S_d0_1_2 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S2x32x32 .f32 := Host.absf main_arg14
  let main_cst_24 : FVec F S_ .f32 := constant S_ .f32 0x7F800000#32
  let main_v65 : FVec F S2x32x32 .f32 := broadcastInDim S2x32x32 ![] bcast_S_S2x32x32 main_cst_24
  let main_v66 : IVec S2x32x32 1 := cmpf .olt main_v64 main_v65
  let main_c_25 : IVec S_ 1 := constantI S_ 1 1#1
  let main_v67 : IVec S_ 1 := (fun x v => Host.reduce IntOp.andi x v reducesTo_S2x32x32_S_d0_1_2 h_S_) main_v66 main_c_25
  fn_part4 (F := F) main_arg15 main_arg16 main_arg17 main_v63 main_v67

def fn_part2 {F : FTy → Type} [FloatOps F] (main_arg8 : FVec F S2x32x32 .f32) (main_arg9 : FVec F S32 .f32) (main_arg10 : FVec F S2x32x32 .f32) (main_arg11 : FVec F S32 .f32) (main_arg12 : FVec F S2x32x32 .f32) (main_arg13 : FVec F S32 .f32) (main_arg14 : FVec F S2x32x32 .f32) (main_arg15 : FVec F S32 .f32) (main_arg16 : FVec F S32x4 .f32) (main_arg17 : FVec F S4 .f32) (main_v33 : IVec S_ 1) : IVec S_ 1 :=
  let main_v34 : FVec F S2x32x32 .f32 := Host.absf main_arg8
  let main_cst_12 : FVec F S_ .f32 := constant S_ .f32 0x7F800000#32
  let main_v35 : FVec F S2x32x32 .f32 := broadcastInDim S2x32x32 ![] bcast_S_S2x32x32 main_cst_12
  let main_v36 : IVec S2x32x32 1 := cmpf .olt main_v34 main_v35
  let main_c_13 : IVec S_ 1 := constantI S_ 1 1#1
  let main_v37 : IVec S_ 1 := (fun x v => Host.reduce IntOp.andi x v reducesTo_S2x32x32_S_d0_1_2 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S2x32x32 .f32 := Host.absf main_arg10
  let main_cst_16 : FVec F S_ .f32 := constant S_ .f32 0x7F800000#32
  let main_v45 : FVec F S2x32x32 .f32 := broadcastInDim S2x32x32 ![] bcast_S_S2x32x32 main_cst_16
  let main_v46 : IVec S2x32x32 1 := cmpf .olt main_v44 main_v45
  let main_c_17 : IVec S_ 1 := constantI S_ 1 1#1
  let main_v47 : IVec S_ 1 := (fun x v => Host.reduce IntOp.andi x v reducesTo_S2x32x32_S_d0_1_2 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_v48 main_v49 main_v50

def fn_part1 {F : FTy → Type} [FloatOps F] (main_arg5 : FVec F S32 .f32) (main_arg6 : FVec F S2x32x32 .f32) (main_arg7 : FVec F S32 .f32) (main_arg8 : FVec F S2x32x32 .f32) (main_arg9 : FVec F S32 .f32) (main_arg10 : FVec F S2x32x32 .f32) (main_arg11 : FVec F S32 .f32) (main_arg12 : FVec F S2x32x32 .f32) (main_arg13 : FVec F S32 .f32) (main_arg14 : FVec F S2x32x32 .f32) (main_arg15 : FVec F S32 .f32) (main_arg16 : FVec F S32x4 .f32) (main_arg17 : FVec F S4 .f32) (main_v13 : IVec S_ 1) (main_v16 : IVec S2x32x32 1) : IVec S_ 1 :=
  let main_c_5 : IVec S_ 1 := constantI S_ 1 1#1
  let main_v17 : IVec S_ 1 := (fun x v => Host.reduce IntOp.andi x v reducesTo_S2x32x32_S_d0_1_2 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S2x32x32 .f32 := Host.absf main_arg6
  let main_cst_8 : FVec F S_ .f32 := constant S_ .f32 0x7F800000#32
  let main_v25 : FVec F S2x32x32 .f32 := broadcastInDim S2x32x32 ![] bcast_S_S2x32x32 main_cst_8
  let main_v26 : IVec S2x32x32 1 := cmpf .olt main_v24 main_v25
  let main_c_9 : IVec S_ 1 := constantI S_ 1 1#1
  let main_v27 : IVec S_ 1 := (fun x v => Host.reduce IntOp.andi x v reducesTo_S2x32x32_S_d0_1_2 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x32 .f32) (main_arg1 : IVec S2x1600000 32) (main_arg2 : FVec F S1600000 .f32) (main_arg3 : FVec F S100000x32 .f32) (main_arg4 : FVec F S2x32x32 .f32) (main_arg5 : FVec F S32 .f32) (main_arg6 : FVec F S2x32x32 .f32) (main_arg7 : FVec F S32 .f32) (main_arg8 : FVec F S2x32x32 .f32) (main_arg9 : FVec F S32 .f32) (main_arg10 : FVec F S2x32x32 .f32) (main_arg11 : FVec F S32 .f32) (main_arg12 : FVec F S2x32x32 .f32) (main_arg13 : FVec F S32 .f32) (main_arg14 : FVec F S2x32x32 .f32) (main_arg15 : FVec F S32 .f32) (main_arg16 : FVec F S32x4 .f32) (main_arg17 : FVec F S4 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x32 .f32 := Host.absf main_arg3
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S2x32x32 .f32 := Host.absf main_arg4
  let main_cst_4 : FVec F S_ .f32 := constant S_ .f32 0x7F800000#32
  let main_v15 : FVec F S2x32x32 .f32 := broadcastInDim S2x32x32 ![] bcast_S_S2x32x32 main_cst_4
  let main_v16 : IVec S2x32x32 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x32 : Shape := ⟨2, ![100000, 32]⟩
abbrev S2x1600000 : Shape := ⟨2, ![2, 1600000]⟩
abbrev S1600000 : Shape := ⟨1, ![1600000]⟩
abbrev S2x32x32 : Shape := ⟨3, ![2, 32, 32]⟩
abbrev S32 : Shape := ⟨1, ![32]⟩
abbrev S32x4 : Shape := ⟨2, ![32, 4]⟩
abbrev S4 : Shape := ⟨1, ![4]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S10000x32 : Shape := ⟨2, ![10000, 32]⟩
abbrev S1x32x32 : Shape := ⟨3, ![1, 32, 32]⟩
abbrev S32x32 : Shape := ⟨2, ![32, 32]⟩
abbrev S1x32 : Shape := ⟨2, ![1, 32]⟩
abbrev S100000x4 : Shape := ⟨2, ![100000, 4]⟩
abbrev S10000x4 : Shape := ⟨2, ![10000, 4]⟩
abbrev S1x4 : Shape := ⟨2, ![1, 4]⟩

abbrev nBuf : Space → Nat
  | .hbm => 118
  | .vmem => 44
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S100000x32, .f32⟩
  | .hbm, ⟨4, _⟩ => ⟨S2x32x32, .f32⟩
  | .hbm, ⟨5, _⟩ => ⟨S32, .f32⟩
  | .hbm, ⟨6, _⟩ => ⟨S2x32x32, .f32⟩
  | .hbm, ⟨7, _⟩ => ⟨S32, .f32⟩
  | .hbm, ⟨8, _⟩ => ⟨S2x32x32, .f32⟩
  | .hbm, ⟨9, _⟩ => ⟨S32, .f32⟩
  | .hbm, ⟨10, _⟩ => ⟨S2x32x32, .f32⟩
  | .hbm, ⟨11, _⟩ => ⟨S32, .f32⟩
  | .hbm, ⟨12, _⟩ => ⟨S2x32x32, .f32⟩
  | .hbm, ⟨13, _⟩ => ⟨S32, .f32⟩
  | .hbm, ⟨14, _⟩ => ⟨S2x32x32, .f32⟩
  | .hbm, ⟨15, _⟩ => ⟨S32, .f32⟩
  | .hbm, ⟨16, _⟩ => ⟨S32x4, .f32⟩
  | .hbm, ⟨17, _⟩ => ⟨S4, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S1600000, .i1⟩
  | .hbm, ⟨23, _⟩ => ⟨S_, .f32⟩
  | .hbm, ⟨24, _⟩ => ⟨S_, .f32⟩
  | .hbm, ⟨25, _⟩ => ⟨S1600000, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000, .f32⟩
  | .hbm, ⟨61, _⟩ => ⟨S1600000, .f32⟩
  | .hbm, ⟨62, _⟩ => ⟨S1600000x1, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x32, .f32⟩
  | .hbm, ⟨72, _⟩ => ⟨S1600000x32, .f32⟩
  | .hbm, ⟨73, _⟩ => ⟨S1600000x32, .f32⟩
  | .hbm, ⟨74, _⟩ => ⟨S_, .f32⟩
  | .hbm, ⟨75, _⟩ => ⟨S100000x32, .f32⟩
  | .hbm, ⟨76, _⟩ => ⟨S1600000x1, .i32⟩
  | .hbm, ⟨77, _⟩ => ⟨S100000x32, .f32⟩
  | .hbm, ⟨78, _⟩ => ⟨S100000x32, .f32⟩
  | .hbm, ⟨79, _⟩ => ⟨S1600000x1, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x32, .f32⟩
  | .hbm, ⟨89, _⟩ => ⟨S1600000x32, .f32⟩
  | .hbm, ⟨90, _⟩ => ⟨S1600000x32, .f32⟩
  | .hbm, ⟨91, _⟩ => ⟨S_, .f32⟩
  | .hbm, ⟨92, _⟩ => ⟨S100000x32, .f32⟩
  | .hbm, ⟨93, _⟩ => ⟨S1600000x1, .i32⟩
  | .hbm, ⟨94, _⟩ => ⟨S100000x32, .f32⟩
  | .hbm, ⟨95, _⟩ => ⟨S100000x32, .f32⟩
  | .hbm, ⟨96, _⟩ => ⟨S100000x32, .f32⟩
  | .hbm, ⟨97, _⟩ => ⟨S100000x32, .f32⟩
  | .hbm, ⟨98, _⟩ => ⟨S100000x32, .f32⟩
  | .hbm, ⟨99, _⟩ => ⟨S1600000x1, .f32⟩
  | .hbm, ⟨100, _⟩ => ⟨S_, .i32⟩
  | .hbm, ⟨101, _⟩ => ⟨S1600000, .i32⟩
  | .hbm, ⟨102, _⟩ => ⟨S1600000, .i1⟩
  | .hbm, ⟨103, _⟩ => ⟨S_, .i32⟩
  | .hbm, ⟨104, _⟩ => ⟨S1600000, .i32⟩
  | .hbm, ⟨105, _⟩ => ⟨S1600000, .i32⟩
  | .hbm, ⟨106, _⟩ => ⟨S1600000, .i32⟩
  | .hbm, ⟨107, _⟩ => ⟨S1600000x1, .i32⟩
  | .hbm, ⟨108, _⟩ => ⟨S1600000x32, .f32⟩
  | .hbm, ⟨109, _⟩ => ⟨S1600000x32, .f32⟩
  | .hbm, ⟨110, _⟩ => ⟨S1600000x32, .f32⟩
  | .hbm, ⟨111, _⟩ => ⟨S_, .f32⟩
  | .hbm, ⟨112, _⟩ => ⟨S100000x32, .f32⟩
  | .hbm, ⟨113, _⟩ => ⟨S1600000x1, .i32⟩
  | .hbm, ⟨114, _⟩ => ⟨S100000x32, .f32⟩
  | .hbm, ⟨115, _⟩ => ⟨S100000x32, .f32⟩
  | .hbm, ⟨116, _⟩ => ⟨S100000x32, .f32⟩
  | .hbm, ⟨117, _⟩ => ⟨S100000x4, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S2x32x32, .f32⟩
  | .local _ .vmem, ⟨9, _⟩ => ⟨S32, .f32⟩
  | .local _ .vmem, ⟨10, _⟩ => ⟨S2x32x32, .f32⟩
  | .local _ .vmem, ⟨11, _⟩ => ⟨S32, .f32⟩
  | .local _ .vmem, ⟨12, _⟩ => ⟨S2x32x32, .f32⟩
  | .local _ .vmem, ⟨13, _⟩ => ⟨S32, .f32⟩
  | .local _ .vmem, ⟨14, _⟩ => ⟨S2x32x32, .f32⟩
  | .local _ .vmem, ⟨15, _⟩ => ⟨S32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S10000x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S2x32x32, .f32⟩
  | .local _ .vmem, ⟨35, _⟩ => ⟨S32, .f32⟩
  | .local _ .vmem, ⟨36, _⟩ => ⟨S2x32x32, .f32⟩
  | .local _ .vmem, ⟨37, _⟩ => ⟨S32, .f32⟩
  | .local _ .vmem, ⟨38, _⟩ => ⟨S32x4, .f32⟩
  | .local _ .vmem, ⟨39, _⟩ => ⟨S4, .f32⟩
  | .local _ .vmem, ⟨40, _⟩ => ⟨S10000x32, .f32⟩
  | .local _ .vmem, ⟨41, _⟩ => ⟨S10000x32, .f32⟩
  | .local _ .vmem, ⟨42, _⟩ => ⟨S10000x4, .f32⟩
  | .local _ .vmem, ⟨43, _⟩ => ⟨S10000x4, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v14 : Ref sig .tc := ⟨.hbm, 41, rfl⟩
abbrev main_c : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_5 : Ref sig .tc := ⟨.hbm, 52, rfl⟩
abbrev main_v23 : Ref sig .tc := ⟨.hbm, 53, rfl⟩
abbrev main_v24 : Ref sig .tc := ⟨.hbm, 54, rfl⟩
abbrev main_c_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_7 : Ref sig .tc := ⟨.hbm, 63, rfl⟩
abbrev main_v32 : Ref sig .tc := ⟨.hbm, 64, rfl⟩
abbrev main_v33 : Ref sig .tc := ⟨.hbm, 65, rfl⟩
abbrev main_c_8 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_10 : Ref sig .tc := ⟨.hbm, 80, rfl⟩
abbrev main_v46 : Ref sig .tc := ⟨.hbm, 81, rfl⟩
abbrev main_v47 : Ref sig .tc := ⟨.hbm, 82, rfl⟩
abbrev main_c_11 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_12 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59_0 : Ref sig .tc := ⟨.hbm, 96, rfl⟩
abbrev main_v59_1 : Ref sig .tc := ⟨.hbm, 97, rfl⟩
abbrev main_v59_2 : Ref sig .tc := ⟨.hbm, 98, rfl⟩
abbrev main_v60 : Ref sig .tc := ⟨.hbm, 99, rfl⟩
abbrev main_c_13 : Ref sig .tc := ⟨.hbm, 100, rfl⟩
abbrev main_v61 : Ref sig .tc := ⟨.hbm, 101, rfl⟩
abbrev main_v62 : Ref sig .tc := ⟨.hbm, 102, rfl⟩
abbrev main_c_14 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74_0 : Ref sig .tc := ⟨.hbm, 116, rfl⟩
abbrev main_v74_1 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg11_0 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg13_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem10_0 : DmaSem sig := 38
abbrev cc1_sem11_0 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S10000x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S10000x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S10000x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2x32x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2x32x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S32x4 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S10000x32 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S10000x4 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S2x32x32_S1x32x32_0_0_0 : ∀ a, (![0, 0, 0] : Fin 3 → Nat) a + S1x32x32.size a ≤ S2x32x32.size a
  h_S1x32x32 : 0 < S1x32x32.numel
  shapeCasts_S1x32x32_S32x32 : S1x32x32.ShapeCasts S32x32
  inb_S2x32x32_S1x32x32_1_0_0 : ∀ a, (![1, 0, 0] : Fin 3 → Nat) a + S1x32x32.size a ≤ S2x32x32.size a
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S32x4_S32x4_0_0 : ∀ a, (![0, 0] : Fin 2 → Nat) a + S32x4.size a ≤ S32x4.size a
  h_S32x4 : 0 < S32x4.numel
  inb_S4_S4_0 : ∀ a, (![0] : Fin 1 → Nat) a + S4.size a ≤ S4.size a
  h_S4 : 0 < S4.numel
  shapeCasts_S4_S1x4 : S4.ShapeCasts S1x4
  broadcasts_S1x4_S10000x4 : S1x4.Broadcasts S10000x4
  inb_S10000x4_S10000x4_0_0 : ∀ a, (![0, 0] : Fin 2 → Nat) a + S10000x4.size a ≤ S10000x4.size a
  h_S10000x4 : 0 < S10000x4.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  dot_S10000x32_S32x4_S10000x4_1_0_0_1_n_n_wf : DotDims.WF S10000x32 S32x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x32x32.size a ≤ S2x32x32.size a
  hwx0_4 : ∀ i : grid0.Coords, EltTy.bits .f32 = 32 ∨ (Rect.block (s := S2x32x32) S2x32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x32x32.size a ≤ S2x32x32.size a
  hwx0_6 : ∀ i : grid0.Coords, EltTy.bits .f32 = 32 ∨ (Rect.block (s := S2x32x32) S2x32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x32x32.size a ≤ S2x32x32.size a
  hwx0_8 : ∀ i : grid0.Coords, EltTy.bits .f32 = 32 ∨ (Rect.block (s := S2x32x32) S2x32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x32x32.size a ≤ S2x32x32.size a
  hwx0_10 : ∀ i : grid0.Coords, EltTy.bits .f32 = 32 ∨ (Rect.block (s := S2x32x32) S2x32x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32.size a ≤ S32.size a
  hwx0_11 : ∀ i : grid0.Coords, EltTy.bits .f32 = 32 ∨ (Rect.block (s := S32) S32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S10000x32.size a ≤ S100000x32.size a
  hwx0_12 : ∀ i : grid0.Coords, EltTy.bits .f32 = 32 ∨ (Rect.block (s := S100000x32) S10000x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S10000x32.size a ≤ S100000x32.size a
  hwx0_13 : ∀ i : grid0.Coords, EltTy.bits .f32 = 32 ∨ (Rect.block (s := S100000x32) S10000x32.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S10000x32.size a ≤ S100000x32.size a
  hwx0_14 : ∀ i : grid0.Coords, EltTy.bits .f32 = 32 ∨ (Rect.block (s := S100000x32) S10000x32.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x32x32.size a ≤ S2x32x32.size a
  hwx1_6 : ∀ i : grid1.Coords, EltTy.bits .f32 = 32 ∨ (Rect.block (s := S2x32x32) S2x32x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32.size a ≤ S32.size a
  hwx1_7 : ∀ i : grid1.Coords, EltTy.bits .f32 = 32 ∨ (Rect.block (s := S32) S32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2x32x32.size a ≤ S2x32x32.size a
  hwx1_8 : ∀ i : grid1.Coords, EltTy.bits .f32 = 32 ∨ (Rect.block (s := S2x32x32) S2x32x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32.size a ≤ S32.size a
  hwx1_9 : ∀ i : grid1.Coords, EltTy.bits .f32 = 32 ∨ (Rect.block (s := S32) S32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S32x4.size a ≤ S32x4.size a
  hwx1_10 : ∀ i : grid1.Coords, EltTy.bits .f32 = 32 ∨ (Rect.block (s := S32x4) S32x4.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S4.size a ≤ S4.size a
  hwx1_11 : ∀ i : grid1.Coords, EltTy.bits .f32 = 32 ∨ (Rect.block (s := S4) S4.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S10000x32.size a ≤ S100000x32.size a
  hwx1_12 : ∀ i : grid1.Coords, EltTy.bits .f32 = 32 ∨ (Rect.block (s := S100000x32) S10000x32.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S10000x4.size a ≤ S100000x4.size a
  hwx1_13 : ∀ i : grid1.Coords, EltTy.bits .f32 = 32 ∨ (Rect.block (s := S100000x4) S10000x4.size (cc1_transform_13 i) (hinb1_13 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x4_S10000x4_1_0_0_1_n_n : DotDims S10000x32 S32x4 S10000x4 where
  lhsContracting := [1]
  rhsContracting := [0]
  lhsNonContracting := [0]
  rhsNonContracting := [1]
  lhsBatch := []
  rhsBatch := []
  wf := dot_S10000x32_S32x4_S10000x4_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S10000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58) S10000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2x32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2x32x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v59_0) S10000x32.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v59_1) S10000x32.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v59_2) S10000x32.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59_2) S10000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v73) S10000x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v59_0) S10000x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S10000x32.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S2x32x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S2x32x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg16) S32x4.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg17) S4.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v74_0) S10000x32.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v74_1) S10000x4.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S2x32x32 : Shape := ⟨3, ![2, 32, 32]⟩
abbrev S32 : Shape := ⟨1, ![32]⟩
abbrev S32x4 : Shape := ⟨2, ![32, 4]⟩
abbrev S4 : Shape := ⟨1, ![4]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S1x32x32 : Shape := ⟨3, ![1, 32, 32]⟩
abbrev S32x32 : Shape := ⟨2, ![32, 32]⟩
abbrev S1x32 : Shape := ⟨2, ![1, 32]⟩
abbrev S100000x4 : Shape := ⟨2, ![100000, 4]⟩
abbrev S1x4 : Shape := ⟨2, ![1, 4]⟩

abbrev nBuf : Space → Nat
  | .hbm => 258
  | .vmem => 0
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S100000x32, .f32⟩
  | 4 => ⟨S2x32x32, .f32⟩
  | 5 => ⟨S32, .f32⟩
  | 6 => ⟨S2x32x32, .f32⟩
  | 7 => ⟨S32, .f32⟩
  | 8 => ⟨S2x32x32, .f32⟩
  | 9 => ⟨S32, .f32⟩
  | 10 => ⟨S2x32x32, .f32⟩
  | 11 => ⟨S32, .f32⟩
  | 12 => ⟨S2x32x32, .f32⟩
  | 13 => ⟨S32, .f32⟩
  | 14 => ⟨S2x32x32, .f32⟩
  | 15 => ⟨S32, .f32⟩
  | 16 => ⟨S32x4, .f32⟩
  | 17 => ⟨S4, .f32⟩
  | 18 => ⟨S1x1600000, .i32⟩
  | 19 => ⟨S1600000, .i32⟩
  | 20 => ⟨S1x1600000, .i32⟩
  | 21 => ⟨S1600000, .i32⟩
  | 22 => ⟨S1600000, .i1⟩
  | 23 => ⟨S_, .f32⟩
  | 24 => ⟨S_, .f32⟩
  | 25 => ⟨S1600000, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S1600000, .f32⟩
  | 62 => ⟨S1600000x1, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x32, .f32⟩
  | 72 => ⟨S1600000x32, .f32⟩
  | 73 => ⟨S1600000x32, .f32⟩
  | 74 => ⟨S_, .f32⟩
  | 75 => ⟨S100000x32, .f32⟩
  | 76 => ⟨S1600000x1, .i32⟩
  | 77 => ⟨S100000x32, .f32⟩
  | 78 => ⟨S100000x32, .f32⟩
  | 79 => ⟨S1x32x32, .f32⟩
  | 80 => ⟨S32x32, .f32⟩
  | 81 => ⟨S100000x32, .f32⟩
  | 82 => ⟨S1x32x32, .f32⟩
  | 83 => ⟨S32x32, .f32⟩
  | 84 => ⟨S100000x32, .f32⟩
  | 85 => ⟨S100000x32, .f32⟩
  | 86 => ⟨S1x32, .f32⟩
  | 87 => ⟨S100000x32, .f32⟩
  | 88 => ⟨S100000x32, .f32⟩
  | 89 => ⟨S1600000x1, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x32, .f32⟩
  | 99 => ⟨S1600000x32, .f32⟩
  | 100 => ⟨S1600000x32, .f32⟩
  | 101 => ⟨S_, .f32⟩
  | 102 => ⟨S100000x32, .f32⟩
  | 103 => ⟨S1600000x1, .i32⟩
  | 104 => ⟨S100000x32, .f32⟩
  | 105 => ⟨S100000x32, .f32⟩
  | 106 => ⟨S1x32x32, .f32⟩
  | 107 => ⟨S32x32, .f32⟩
  | 108 => ⟨S100000x32, .f32⟩
  | 109 => ⟨S1x32x32, .f32⟩
  | 110 => ⟨S32x32, .f32⟩
  | 111 => ⟨S100000x32, .f32⟩
  | 112 => ⟨S100000x32, .f32⟩
  | 113 => ⟨S1x32, .f32⟩
  | 114 => ⟨S100000x32, .f32⟩
  | 115 => ⟨S100000x32, .f32⟩
  | 116 => ⟨S100000x32, .f32⟩
  | 117 => ⟨S100000x32, .f32⟩
  | 118 => ⟨S100000x32, .f32⟩
  | 119 => ⟨S_, .f32⟩
  | 120 => ⟨S100000x32, .f32⟩
  | 121 => ⟨S100000x32, .f32⟩
  | 122 => ⟨S_, .f32⟩
  | 123 => ⟨S100000x32, .f32⟩
  | 124 => ⟨S100000x32, .f32⟩
  | 125 => ⟨S1600000x1, .f32⟩
  | 126 => ⟨S_, .i32⟩
  | 127 => ⟨S1600000, .i32⟩
  | _ => ⟨S100000x32, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x32, .f32⟩
  | 7 => ⟨S1600000x32, .f32⟩
  | 8 => ⟨S1600000x32, .f32⟩
  | 9 => ⟨S_, .f32⟩
  | 10 => ⟨S100000x32, .f32⟩
  | 11 => ⟨S1600000x1, .i32⟩
  | 12 => ⟨S100000x32, .f32⟩
  | 13 => ⟨S100000x32, .f32⟩
  | 14 => ⟨S1x32x32, .f32⟩
  | 15 => ⟨S32x32, .f32⟩
  | 16 => ⟨S100000x32, .f32⟩
  | 17 => ⟨S1x32x32, .f32⟩
  | 18 => ⟨S32x32, .f32⟩
  | 19 => ⟨S100000x32, .f32⟩
  | 20 => ⟨S100000x32, .f32⟩
  | 21 => ⟨S1x32, .f32⟩
  | 22 => ⟨S100000x32, .f32⟩
  | 23 => ⟨S100000x32, .f32⟩
  | 24 => ⟨S1600000x1, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x32, .f32⟩
  | 34 => ⟨S1600000x32, .f32⟩
  | 35 => ⟨S1600000x32, .f32⟩
  | 36 => ⟨S_, .f32⟩
  | 37 => ⟨S100000x32, .f32⟩
  | 38 => ⟨S1600000x1, .i32⟩
  | 39 => ⟨S100000x32, .f32⟩
  | 40 => ⟨S100000x32, .f32⟩
  | 41 => ⟨S1x32x32, .f32⟩
  | 42 => ⟨S32x32, .f32⟩
  | 43 => ⟨S100000x32, .f32⟩
  | 44 => ⟨S1x32x32, .f32⟩
  | 45 => ⟨S32x32, .f32⟩
  | 46 => ⟨S100000x32, .f32⟩
  | 47 => ⟨S100000x32, .f32⟩
  | 48 => ⟨S1x32, .f32⟩
  | 49 => ⟨S100000x32, .f32⟩
  | 50 => ⟨S100000x32, .f32⟩
  | 51 => ⟨S100000x32, .f32⟩
  | 52 => ⟨S100000x32, .f32⟩
  | 53 => ⟨S100000x32, .f32⟩
  | 54 => ⟨S_, .f32⟩
  | 55 => ⟨S100000x32, .f32⟩
  | 56 => ⟨S100000x32, .f32⟩
  | 57 => ⟨S_, .f32⟩
  | 58 => ⟨S100000x32, .f32⟩
  | 59 => ⟨S100000x32, .f32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x32, .f32⟩
  | 70 => ⟨S1600000x32, .f32⟩
  | 71 => ⟨S1600000x32, .f32⟩
  | 72 => ⟨S_, .f32⟩
  | 73 => ⟨S100000x32, .f32⟩
  | 74 => ⟨S1600000x1, .i32⟩
  | 75 => ⟨S100000x32, .f32⟩
  | 76 => ⟨S100000x32, .f32⟩
  | 77 => ⟨S1x32x32, .f32⟩
  | 78 => ⟨S32x32, .f32⟩
  | 79 => ⟨S100000x32, .f32⟩
  | 80 => ⟨S1x32x32, .f32⟩
  | 81 => ⟨S32x32, .f32⟩
  | 82 => ⟨S100000x32, .f32⟩
  | 83 => ⟨S100000x32, .f32⟩
  | 84 => ⟨S1x32, .f32⟩
  | 85 => ⟨S100000x32, .f32⟩
  | 86 => ⟨S100000x32, .f32⟩
  | 87 => ⟨S100000x32, .f32⟩
  | 88 => ⟨S1600000x1, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x32, .f32⟩
  | 98 => ⟨S1600000x32, .f32⟩
  | 99 => ⟨S1600000x32, .f32⟩
  | 100 => ⟨S_, .f32⟩
  | 101 => ⟨S100000x32, .f32⟩
  | 102 => ⟨S1600000x1, .i32⟩
  | 103 => ⟨S100000x32, .f32⟩
  | 104 => ⟨S100000x32, .f32⟩
  | 105 => ⟨S1x32x32, .f32⟩
  | 106 => ⟨S32x32, .f32⟩
  | 107 => ⟨S100000x32, .f32⟩
  | 108 => ⟨S1x32x32, .f32⟩
  | 109 => ⟨S32x32, .f32⟩
  | 110 => ⟨S100000x32, .f32⟩
  | 111 => ⟨S100000x32, .f32⟩
  | 112 => ⟨S1x32, .f32⟩
  | 113 => ⟨S100000x32, .f32⟩
  | 114 => ⟨S100000x32, .f32⟩
  | 115 => ⟨S100000x32, .f32⟩
  | 116 => ⟨S100000x32, .f32⟩
  | 117 => ⟨S100000x32, .f32⟩
  | 118 => ⟨S_, .f32⟩
  | 119 => ⟨S100000x32, .f32⟩
  | 120 => ⟨S100000x32, .f32⟩
  | 121 => ⟨S100000x32, .f32⟩
  | 122 => ⟨S100000x32, .f32⟩
  | 123 => ⟨S_, .f32⟩
  | 124 => ⟨S100000x32, .f32⟩
  | 125 => ⟨S100000x32, .f32⟩
  | 126 => ⟨S100000x4, .f32⟩
  | 127 => ⟨S1x4, .f32⟩
  | _ => ⟨S100000x32, .f32⟩

abbrev hbmTy0_2 (i : Nat) : BufTy := match i % 128 with
  | 0 => ⟨S100000x4, .f32⟩
  | 1 => ⟨S100000x4, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v14 : Ref sig .tc := ⟨.hbm, 41, rfl⟩
abbrev main_c : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_5 : Ref sig .tc := ⟨.hbm, 52, rfl⟩
abbrev main_v23 : Ref sig .tc := ⟨.hbm, 53, rfl⟩
abbrev main_v24 : Ref sig .tc := ⟨.hbm, 54, rfl⟩
abbrev main_c_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_7 : Ref sig .tc := ⟨.hbm, 63, rfl⟩
abbrev main_v32 : Ref sig .tc := ⟨.hbm, 64, rfl⟩
abbrev main_v33 : Ref sig .tc := ⟨.hbm, 65, rfl⟩
abbrev main_c_8 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_10 : Ref sig .tc := ⟨.hbm, 90, rfl⟩
abbrev main_v56 : Ref sig .tc := ⟨.hbm, 91, rfl⟩
abbrev main_v57 : Ref sig .tc := ⟨.hbm, 92, rfl⟩
abbrev main_c_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_12 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_13 : Ref sig .tc := ⟨.hbm, 119, rfl⟩
abbrev main_v82 : Ref sig .tc := ⟨.hbm, 120, rfl⟩
abbrev main_v83 : Ref sig .tc := ⟨.hbm, 121, rfl⟩
abbrev main_cst_14 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_15 : Ref sig .tc := ⟨.hbm, 126, rfl⟩
abbrev main_v87 : Ref sig .tc := ⟨.hbm, 127, rfl⟩
abbrev main_v88 : Ref sig .tc := ⟨.hbm, 128, rfl⟩
abbrev main_c_16 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_17 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_c_18 : Ref sig .tc := ⟨.hbm, 153, rfl⟩
abbrev main_v111 : Ref sig .tc := ⟨.hbm, 154, rfl⟩
abbrev main_v112 : Ref sig .tc := ⟨.hbm, 155, rfl⟩
abbrev main_c_19 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_20 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_21 : Ref sig .tc := ⟨.hbm, 182, rfl⟩
abbrev main_v137 : Ref sig .tc := ⟨.hbm, 183, rfl⟩
abbrev main_v138 : Ref sig .tc := ⟨.hbm, 184, rfl⟩
abbrev main_cst_22 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_23 : Ref sig .tc := ⟨.hbm, 189, rfl⟩
abbrev main_v142 : Ref sig .tc := ⟨.hbm, 190, rfl⟩
abbrev main_v143 : Ref sig .tc := ⟨.hbm, 191, rfl⟩
abbrev main_c_24 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_25 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_c_26 : Ref sig .tc := ⟨.hbm, 217, rfl⟩
abbrev main_v167 : Ref sig .tc := ⟨.hbm, 218, rfl⟩
abbrev main_v168 : Ref sig .tc := ⟨.hbm, 219, rfl⟩
abbrev main_c_27 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_28 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_cst_29 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_call2_cst : Ref sig .tc := ⟨.hbm, 251, rfl⟩
abbrev main_call2_v0 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S2x32x32_S1x32x32_0_0_0 : S2x32x32.Slices ![0, 0, 0] S1x32x32
  shapeCasts_S1x32x32_S32x32 : S1x32x32.ShapeCasts S32x32
  slices_S2x32x32_S1x32x32_1_0_0 : S2x32x32.Slices ![1, 0, 0] S1x32x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x4_S100000x4_1_0_0_1_n_n_wf : DotDims.WF S100000x32 S32x4 S100000x4 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x4_S100000x4_1_0_0_1_n_n : DotDims S100000x32 S32x4 S100000x4 where
  lhsContracting := [1]
  rhsContracting := [0]
  lhsNonContracting := [0]
  rhsNonContracting := [1]
  lhsBatch := []
  rhsBatch := []
  wf := dot_S100000x32_S32x4_S100000x4_1_0_0_1_n_n_wf

class Facts : Prop extends Facts₀ where

variable [Facts]
-- ==== Proof.RefStages.lean ====
/-
  The reference program read back: its run (every weakly fair execution ends with each result at the composed term of
  the arguments) and its stages one operation at a time, each with its value at an index.
-/
import proofs.«404224_j77799037599894_1_alg».proof.Proof.Gen.ReferenceIdeal.Run
import proofs.«404224_j77799037599894_1_alg».proof.Proof.Gen.ReferenceIdeal.Read
-- ==== Proof.GraphGru.lean ====
/-
  One step of a gated recurrent unit whose input and state transforms are order-two Chebyshev graph convolutions, followed by
  a linear head, written node by node over the extended reals.

  Every array is read at explicit coordinates: a node-feature array at (node, feature), a pair of weight matrices at
  (order, input feature, output feature), a bias at (feature). For a node `r` and an output feature `j`,

    conv u a W b (r, j) = (Σₖ u(r,k)·W(0,k,j) + Σₖ a(r,k)·W(1,k,j)) + b(j)

  where `a` is the array of aggregated neighbour features (minus the normalised adjacency applied to `u`). The update gate
  and the reset gate are the logistic function of `conv x ax + conv h ah`; the candidate state is the hyperbolic tangent of
  `conv x ax + conv (h·R) a(h·R)`; the new state is `Z·h + (1 − Z)·candidate`; the head is `relu(state)·lin_w + lin_b`.
  Every value at node `r` depends only on row `r` of the node arrays: that is what lets a row block be computed alone.
-/
import Idealize.ShloMosaic.PureOps.Ideal
import Idealize.ShloMosaic.Lib.ValueIdx
import Idealize.ShloMosaic.PureOps.Ideal.Laws

noncomputable section

namespace GraphGru

open Idealize.ShloMosaic Idealize.ShloMosaic.ValueIdx

/-- The word of the float `1.0`, kept as a word: both programs splat the same one. -/
abbrev oneW : EReal := Ideal.ofBits .f32 0x3F800000#32
/-- The word of the float `0.0` (the floor of the rectifier). -/
abbrev zeroW : EReal := Ideal.ofBits .f32 0x00000000#32

/-- The word `0x3F800000` is the real number one: sign 0, biased exponent 127, empty fraction. -/
theorem oneW_eq_one : oneW = (1 : EReal) := by
  simp [Ideal.ofBits, Ideal.ieee]
  rw [← EReal.coe_mul, ← EReal.coe_one]
  congr 1
  norm_num

/-- The logistic function written out, `1 / (1 + e^(-x))` with the float word for each `1`, is the logistic function. -/
theorem logistic_expanded (x : EReal) : Ideal.div oneW (oneW + Ideal.exp (-x)) = Ideal.logistic x := by
  rw [oneW_eq_one]; rfl

/-- A node-feature array of `n` nodes and `d` features. -/
abbrev Nodes (n d : Nat) := (⟨2, ![n, d]⟩ : Shape).Idx → EReal
/-- The two weight matrices of a convolution of order two. -/
abbrev Weights := (⟨3, ![2, 32, 32]⟩ : Shape).Idx → EReal
/-- A bias over the output features. -/
abbrev Bias (d : Nat) := (⟨1, ![d]⟩ : Shape).Idx → EReal

variable {n : Nat}

/-- The convolution at node `r`, output feature `j`: the node's own features through `W 0`, its aggregated neighbours'
    through `W 1`, and the bias; the two products are added first, the bias last. -/
def conv (u a : Nodes n 32) (W : Weights) (b : Bias 32) (r : Fin n) (j : Fin 32) : EReal :=
  ((∑ k : Fin 32, u (ix2 r k) * W (ix3 (0 : Fin 2) k j)) + ∑ k : Fin 32, a (ix2 r k) * W (ix3 (1 : Fin 2) k j)) + b (ix1 j)

/-- A gate (update or reset): the logistic function of the input's convolution plus the state's. -/
def gate (x ax h ah : Nodes n 32) (Wx : Weights) (bx : Bias 32) (Wh : Weights) (bh : Bias 32) : Nodes n 32 :=
  fun i => Ideal.logistic (conv x ax Wx bx (i 0) (i 1) + conv h ah Wh bh (i 0) (i 1))

/-- The state scaled by the reset gate, entry by entry. -/
def scaled (h R : Nodes n 32) : Nodes n 32 := fun i => h i * R i

/-- The candidate state: the hyperbolic tangent of the input's convolution plus the reset-scaled state's. -/
def candidate (x ax hr ahr : Nodes n 32) (Wx : Weights) (bx : Bias 32) (Wh : Weights) (bh : Bias 32) : Nodes n 32 :=
  fun i => Ideal.tanh (conv x ax Wx bx (i 0) (i 1) + conv hr ahr Wh bh (i 0) (i 1))

/-- The new state: the update gate keeps the old state, its complement lets the candidate in. -/
def blend (Z h C : Nodes n 32) : Nodes n 32 := fun i => Z i * h i + (oneW - Z i) * C i

/-- The linear head on the rectified state. -/
def head (s : Nodes n 32) (lw : (⟨2, ![32, 4]⟩ : Shape).Idx → EReal) (lb : Bias 4) : Nodes n 4 :=
  fun i => (∑ k : Fin 32, max (s (ix2 (i 0) k)) zeroW * lw (ix2 k (i 1))) + lb (ix1 (i 1))

/-! ## Rows are independent: a value at a node reads only that node's row of each node array -/

/-- The convolution at row `r` of one pair of arrays is the convolution at row `r'` of another pair whose rows agree there. -/
theorem conv_congr_row {n' : Nat} (u a : Nodes n 32) (u' a' : Nodes n' 32) (W : Weights) (b : Bias 32) (r : Fin n) (r' : Fin n')
    (hu : ∀ k : Fin 32, u (ix2 r k) = u' (ix2 r' k)) (ha : ∀ k : Fin 32, a (ix2 r k) = a' (ix2 r' k)) (j : Fin 32) :
    conv u a W b r j = conv u' a' W b r' j := by
  unfold conv
  simp only [hu, ha]

/-- A gate at node `r` reads only row `r` of the four node arrays. -/
theorem gate_congr_row {n' : Nat} (x ax h ah : Nodes n 32) (x' ax' h' ah' : Nodes n' 32) (Wx : Weights) (bx : Bias 32) (Wh : Weights) (bh : Bias 32)
    (r : Fin n) (r' : Fin n')
    (hx : ∀ k : Fin 32, x (ix2 r k) = x' (ix2 r' k)) (hax : ∀ k : Fin 32, ax (ix2 r k) = ax' (ix2 r' k))
    (hh : ∀ k : Fin 32, h (ix2 r k) = h' (ix2 r' k)) (hah : ∀ k : Fin 32, ah (ix2 r k) = ah' (ix2 r' k)) (j : Fin 32) :
    gate x ax h ah Wx bx Wh bh (ix2 r j) = gate x' ax' h' ah' Wx bx Wh bh (ix2 r' j) := by
  show Ideal.logistic (conv x ax Wx bx r j + conv h ah Wh bh r j) = Ideal.logistic (conv x' ax' Wx bx r' j + conv h' ah' Wh bh r' j)
  rw [conv_congr_row x ax x' ax' Wx bx r r' hx hax j, conv_congr_row h ah h' ah' Wh bh r r' hh hah j]

/-- The candidate state at node `r` reads only row `r` of the four node arrays. -/
theorem candidate_congr_row {n' : Nat} (x ax h ah : Nodes n 32) (x' ax' h' ah' : Nodes n' 32) (Wx : Weights) (bx : Bias 32) (Wh : Weights) (bh : Bias 32)
    (r : Fin n) (r' : Fin n')
    (hx : ∀ k : Fin 32, x (ix2 r k) = x' (ix2 r' k)) (hax : ∀ k : Fin 32, ax (ix2 r k) = ax' (ix2 r' k))
    (hh : ∀ k : Fin 32, h (ix2 r k) = h' (ix2 r' k)) (hah : ∀ k : Fin 32, ah (ix2 r k) = ah' (ix2 r' k)) (j : Fin 32) :
    candidate x ax h ah Wx bx Wh bh (ix2 r j) = candidate x' ax' h' ah' Wx bx Wh bh (ix2 r' j) := by
  show Ideal.tanh (conv x ax Wx bx r j + conv h ah Wh bh r j) = Ideal.tanh (conv x' ax' Wx bx r' j + conv h' ah' Wh bh r' j)
  rw [conv_congr_row x ax x' ax' Wx bx r r' hx hax j, conv_congr_row h ah h' ah' Wh bh r r' hh hah j]

/-- The head at node `r` reads only row `r` of the state. -/
theorem head_congr_row {n' : Nat} (s : Nodes n 32) (s' : Nodes n' 32) (lw : (⟨2, ![32, 4]⟩ : Shape).Idx → EReal) (lb : Bias 4)
    (r : Fin n) (r' : Fin n') (hs : ∀ k : Fin 32, s (ix2 r k) = s' (ix2 r' k)) (j : Fin 4) :
    head s lw lb (ix2 r j) = head s' lw lb (ix2 r' j) := by
  show (∑ k : Fin 32, max (s (ix2 r k)) zeroW * lw (ix2 k j)) + lb (ix1 j) = (∑ k : Fin 32, max (s' (ix2 r' k)) zeroW * lw (ix2 k j)) + lb (ix1 j)
  simp only [hs]

/-- The scaled state at an entry reads the two arrays at that entry. -/
theorem scaled_congr {n' : Nat} (h R : Nodes n 32) (h' R' : Nodes n' 32) (i : (⟨2, ![n, 32]⟩ : Shape).Idx) (i' : (⟨2, ![n', 32]⟩ : Shape).Idx)
    (hh : h i = h' i') (hR : R i = R' i') : scaled h R i = scaled h' R' i' := by
  unfold scaled; rw [hh, hR]

/-- The blended state at an entry reads the three arrays at that entry. -/
theorem blend_congr {n' : Nat} (Z h C : Nodes n 32) (Z' h' C' : Nodes n' 32) (i : (⟨2, ![n, 32]⟩ : Shape).Idx) (i' : (⟨2, ![n', 32]⟩ : Shape).Idx)
    (hZ : Z i = Z' i') (hh : h i = h' i') (hC : C i = C' i') : blend Z h C i = blend Z' h' C' i' := by
  unfold blend; rw [hZ, hh, hC]

end GraphGru

end
-- ==== Proof.BlockOps.lean ====
/-
  A row block of node features through the pieces both kernels are made of, read at a (row, feature) coordinate.

  A block holds 10000 consecutive nodes. A matrix product of the block with a 32 × 32 weight matrix into a zero
  accumulator is, at row p and feature q, the sum over k of block(p,k)·weight(k,q): the contraction never leaves row p.
  A weight matrix is one of the two 32 × 32 slabs of a 2 × 32 × 32 array, loaded as a 1 × 32 × 32 piece and re-laid as
  32 × 32: entry (k,q) of slab s is the array's entry (s,k,q). A bias of 32 features is re-laid as one row and repeated
  down the block: at (p,q) it is the bias at q. Together: the order-two convolution of the specification, on the block.
-/
import proofs.«404224_j77799037599894_1_alg».proof.Proof.Gen.KernelIdeal.Frame
import proofs.«404224_j77799037599894_1_alg».proof.Proof.GraphGru
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockOps

open Cert.KernelIdeal Cert.KernelIdeal.Gen Idealize.ShloMosaic Idealize.ShloMosaic.TcCoe Idealize.ShloMosaic.ValueIdx

/-! ## The product of a row block with a square weight matrix -/

theorem lhs_rows_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhs_rows_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
theorem rhs_rows_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
theorem rhs_rows_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- Row p of the block against column q of the weight matrix. -/
theorem matmul_rows (u : FVec Ideal S10000x32 .f32) (w : FVec Ideal S32x32 .f32) (p : Fin 10000) (q : Fin 32) :
    matmul dot_S10000x32_S32x32_S10000x32_1_0_0_1_n_n none u w (constant S10000x32 .f32 0x00000000#32) (ix2 p q)
      = ∑ k : Fin 32, u (ix2 p k) * w (ix2 k q) := by
  simp only [matmul]
  rw [Ideal.matmul_constant_zero_apply, ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p q) ((contrEquiv1 dot_S10000x32_S32x32_S10000x32_1_0_0_1_n_n 32 rfl rfl).symm k) = ix2 p k := funext fun a => Fin.ext (by
    match a with
    | ⟨0, _⟩ => exact lhs_rows_0 _ _
    | ⟨1, _⟩ => exact (lhs_rows_1 _ _).trans hk)
  have er : dot_S10000x32_S32x32_S10000x32_1_0_0_1_n_n.rhsIdx (ix2 p q) ((contrEquiv1 dot_S10000x32_S32x32_S10000x32_1_0_0_1_n_n 32 rfl rfl).symm k) = ix2 k q := funext fun a => Fin.ext (by
    match a with
    | ⟨0, _⟩ => exact (rhs_rows_0 _ _).trans hk
    | ⟨1, _⟩ => exact rhs_rows_1 _ _)
  rw [el, er]

/-! ## The two weight slabs and the bias -/

/-- The first slab, loaded and re-laid as a square matrix: entry (k,q) is the array's (0,k,q). -/
theorem slab0_at (W : Vec Ideal S2x32x32 .f32) (k q : Fin 32) :
    shapeCast S32x32 (View.ld W r0_1) shapeCasts_S1x32x32_S32x32 (ix2 k q) = W (ix3 (0 : Fin 2) k q) := by
  rw [shapeCast_apply (View.ld W r0_1) shapeCasts_S1x32x32_S32x32 (ix2 k q) (ix3 (0 : Fin 1) k q) (by
    rw [Shape.rowMajor_val_three, Shape.rowMajor_val_two]
    show (0 * 32 + k.val) * 32 + q.val = k.val * 32 + q.val
    omega)]
  show W (r0_1.idx (ix3 (0 : Fin 1) k q)) = W (ix3 (0 : Fin 2) k q)
  refine congrArg W (funext fun a => Fin.ext ?_)
  match a with
  | ⟨0, _⟩ => rfl
  | ⟨1, _⟩ => show 0 + 1 * k.val = k.val; omega
  | ⟨2, _⟩ => show 0 + 1 * q.val = q.val; omega

/-- The second slab: entry (k,q) is the array's (1,k,q). -/
theorem slab1_at (W : Vec Ideal S2x32x32 .f32) (k q : Fin 32) :
    shapeCast S32x32 (View.ld W r0_2) shapeCasts_S1x32x32_S32x32 (ix2 k q) = W (ix3 (1 : Fin 2) k q) := by
  rw [shapeCast_apply (View.ld W r0_2) shapeCasts_S1x32x32_S32x32 (ix2 k q) (ix3 (0 : Fin 1) k q) (by
    rw [Shape.rowMajor_val_three, Shape.rowMajor_val_two]
    show (0 * 32 + k.val) * 32 + q.val = k.val * 32 + q.val
    omega)]
  show W (r0_2.idx (ix3 (0 : Fin 1) k q)) = W (ix3 (1 : Fin 2) k q)
  refine congrArg W (funext fun a => Fin.ext ?_)
  match a with
  | ⟨0, _⟩ => rfl
  | ⟨1, _⟩ => show 0 + 1 * k.val = k.val; omega
  | ⟨2, _⟩ => show 0 + 1 * q.val = q.val; omega

/-- The bias, re-laid as one row and repeated down the block: at (p,q) it is the bias at q. -/
theorem bias_at (b : Vec Ideal S32 .f32) (p : Fin 10000) (q : Fin 32) :
    broadcastTo S10000x32 (shapeCast S1x32 (View.ld b r0_3) shapeCasts_S32_S1x32) broadcasts_S1x32_S10000x32 (ix2 p q) = b (ix1 q) := by
  rw [broadcastTo_apply (shapeCast S1x32 (View.ld b r0_3) shapeCasts_S32_S1x32) broadcasts_S1x32_S10000x32 (ix2 p q) (ix2 (0 : Fin 1) q) (fun a => by
    match a with
    | ⟨0, _⟩ => rfl
    | ⟨1, _⟩ => rfl)]
  rw [shapeCast_apply (View.ld b r0_3) shapeCasts_S32_S1x32 (ix2 (0 : Fin 1) q) (ix1 q) (by
    rw [Shape.rowMajor_val_one, Shape.rowMajor_val_two]
    show q.val = 0 * 32 + q.val
    omega)]
  show b (r0_3.idx (ix1 q)) = b (ix1 q)
  refine congrArg b (funext fun a => Fin.ext ?_)
  match a with
  | ⟨0, _⟩ => show 0 + 1 * q.val = q.val; omega

/-! ## The convolution on a block -/

/-- The block's own features through the first slab, its aggregated neighbours' through the second, then the bias:
    the specification's convolution of the block, at row p and feature q. -/
theorem conv_at (u a : FVec Ideal S10000x32 .f32) (W : Vec Ideal S2x32x32 .f32) (b : Vec Ideal S32 .f32) (p : Fin 10000) (q : Fin 32) :
    addf (addf (matmul dot_S10000x32_S32x32_S10000x32_1_0_0_1_n_n none u (shapeCast S32x32 (View.ld W r0_1) shapeCasts_S1x32x32_S32x32 : FVec Ideal S32x32 .f32) (constant S10000x32 .f32 0x00000000#32))
               (matmul dot_S10000x32_S32x32_S10000x32_1_0_0_1_n_n none a (shapeCast S32x32 (View.ld W r0_2) shapeCasts_S1x32x32_S32x32 : FVec Ideal S32x32 .f32) (constant S10000x32 .f32 0x00000000#32)))
         (broadcastTo S10000x32 (shapeCast S1x32 (View.ld b r0_3) shapeCasts_S32_S1x32 : FVec Ideal S1x32 .f32) broadcasts_S1x32_S10000x32 : FVec Ideal S10000x32 .f32) (ix2 p q)
      = GraphGru.conv u a W b p q := by
  rw [addf_apply, addf_apply, matmul_rows, matmul_rows, bias_at]
  unfold GraphGru.conv
  exact congrArg (· + b (ix1 q)) (congrArg₂ (· + ·)
    (Finset.sum_congr rfl fun k _ => congrArg (u (ix2 p k) * ·) (slab0_at W k q))
    (Finset.sum_congr rfl fun k _ => congrArg (a (ix2 p k) * ·) (slab1_at W k q)))

end Cert.KernelIdeal.BlockOps

end
-- ==== Proof.GateBlocks.lean ====
/-
  The first kernel region, read as values: over ten row blocks of 10000 nodes it writes the update gate, the reset gate
  and the state scaled by the reset gate. Each output block is the specification's function of the same rows of the node
  arrays and of the whole weight arrays, so the blocks together are that function of the whole arrays.

  Everything is stated at the contents `V` the region is entered with, whatever they are.
-/
import proofs.«404224_j77799037599894_1_alg».proof.Proof.BlockOps

set_option maxRecDepth 16384

noncomputable section

namespace Cert.KernelIdeal.Gates

open Cert.KernelIdeal Cert.KernelIdeal.Gen Cert.KernelIdeal.BlockOps Idealize.ShloMosaic Idealize.ShloMosaic.TcCoe Idealize.ShloMosaic.ValueIdx

/-! ## What the body stores, as the specification's functions of its loaded blocks -/

/-- The update gate's payload: the logistic function of the input's convolution plus the state's. -/
theorem pay_update (x h ax ah : Vec Ideal S10000x32 .f32) (Wx : Vec Ideal S2x32x32 .f32) (bx : Vec Ideal S32 .f32)
    (Wh : Vec Ideal S2x32x32 .f32) (bh : Vec Ideal S32 .f32) :
    k0_pay5 x h ax ah (View.ld Wx r0_1) (View.ld Wx r0_2) (View.ld bx r0_3) (View.ld Wh r0_1) (View.ld Wh r0_2) (View.ld bh r0_3)
      = GraphGru.gate x ax h ah Wx bx Wh bh := by
  funext y
  obtain ⟨p, q, rfl⟩ : ∃ (p : Fin 10000) (q : Fin 32), y = ix2 p q := ⟨y 0, y 1, eq_ix2 y⟩
  have e1 := conv_at x ax Wx bx p q
  have e2 := conv_at h ah Wh bh p q
  unfold k0_pay5 k0_pay3 k0_pay4 GraphGru.gate
  rw [shapeCast_self, shapeCast_self]
  exact congrArg Ideal.logistic (congrArg₂ (· + ·) e1 e2)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the ten grid points: every node window's block index is (t, 0) — the same for
    the four inputs and the three outputs — and every weight or bias window stays at block zero. -/
theorem idx_facts : ∀ t : Fin cfg0.N,
    win0_12.index t (0 : Fin 2) < 10 ∧ win0_12.index t (1 : Fin 2) = 0
    ∧ win0_0.index t (0 : Fin 2) = win0_12.index t (0 : Fin 2) ∧ win0_0.index t (1 : Fin 2) = 0
    ∧ win0_1.index t (0 : Fin 2) = win0_12.index t (0 : Fin 2) ∧ win0_1.index t (1 : Fin 2) = 0
    ∧ win0_2.index t (0 : Fin 2) = win0_12.index t (0 : Fin 2) ∧ win0_2.index t (1 : Fin 2) = 0
    ∧ win0_3.index t (0 : Fin 2) = win0_12.index t (0 : Fin 2) ∧ win0_3.index t (1 : Fin 2) = 0
    ∧ win0_13.index t (0 : Fin 2) = win0_12.index t (0 : Fin 2) ∧ win0_13.index t (1 : Fin 2) = 0
    ∧ win0_14.index t (0 : Fin 2) = win0_12.index t (0 : Fin 2) ∧ win0_14.index t (1 : Fin 2) = 0 :=
  (by decide +kernel : ∀ t : Fin grid0.N, _)

theorem idx_weights : ∀ t : Fin cfg0.N,
    (win0_4.index t (0 : Fin 3) = 0 ∧ win0_4.index t (1 : Fin 3) = 0 ∧ win0_4.index t (2 : Fin 3) = 0)
    ∧ win0_5.index t (0 : Fin 1) = 0
    ∧ (win0_6.index t (0 : Fin 3) = 0 ∧ win0_6.index t (1 : Fin 3) = 0 ∧ win0_6.index t (2 : Fin 3) = 0)
    ∧ win0_7.index t (0 : Fin 1) = 0
    ∧ (win0_8.index t (0 : Fin 3) = 0 ∧ win0_8.index t (1 : Fin 3) = 0 ∧ win0_8.index t (2 : Fin 3) = 0)
    ∧ win0_9.index t (0 : Fin 1) = 0
    ∧ (win0_10.index t (0 : Fin 3) = 0 ∧ win0_10.index t (1 : Fin 3) = 0 ∧ win0_10.index t (2 : Fin 3) = 0)
    ∧ win0_11.index t (0 : Fin 1) = 0 :=
  (by decide +kernel : ∀ t : Fin grid0.N, _)

/-- Every block index of the output is some point's. -/
theorem idx_onto : ∀ q0 : Fin 10, ∃ t : Fin cfg0.N, win0_12.index t (0 : Fin 2) = q0.val :=
  (by decide +kernel : ∀ q0 : Fin 10, ∃ t : Fin grid0.N, win0_12.index t (0 : Fin 2) = q0.val)

/-! ## The node windows' blocks are rows of the arrays -/

/-- The row of the arrays that row `p` of point `t`'s blocks is. -/
abbrev rowOf (t : Fin cfg0.N) (p : Fin 10000) : Fin 100000 :=
  ⟨win0_12.index t (0 : Fin 2) * 10000 + p.val, by have := (idx_facts t).1; have := p.isLt; omega⟩

theorem row_x (c : Dev nD) (t : Fin cfg0.N) (p : Fin 10000) (k : Fin 32) :
    iblk0 V c 0 t (ix2 p k) = V c main_arg0 (ix2 (rowOf t p) k) := by
  obtain ⟨-, -, e0, e1, -⟩ := idx_facts t
  show V c main_arg0 (((cfg0.win 0).blk t).view.emb (ix2 p k)) = V c main_arg0 (ix2 (rowOf t p) k)
  refine congrArg (V c main_arg0) (funext fun a => Fin.ext ?_)
  match a with
  | ⟨0, _⟩ => show win0_0.index t (0 : Fin 2) * 10000 + 1 * p.val = win0_12.index t (0 : Fin 2) * 10000 + p.val; omega
  | ⟨1, _⟩ => show win0_0.index t (1 : Fin 2) * 32 + 1 * k.val = k.val; omega

theorem row_h (c : Dev nD) (t : Fin cfg0.N) (p : Fin 10000) (k : Fin 32) :
    iblk0 V c 1 t (ix2 p k) = V c main_arg3 (ix2 (rowOf t p) k) := by
  obtain ⟨-, -, -, -, e0, e1, -⟩ := idx_facts t
  show V c main_arg3 (((cfg0.win 1).blk t).view.emb (ix2 p k)) = V c main_arg3 (ix2 (rowOf t p) k)
  refine congrArg (V c main_arg3) (funext fun a => Fin.ext ?_)
  match a with
  | ⟨0, _⟩ => show win0_1.index t (0 : Fin 2) * 10000 + 1 * p.val = win0_12.index t (0 : Fin 2) * 10000 + p.val; omega
  | ⟨1, _⟩ => show win0_1.index t (1 : Fin 2) * 32 + 1 * k.val = k.val; omega

theorem row_ax (c : Dev nD) (t : Fin cfg0.N) (p : Fin 10000) (k : Fin 32) :
    iblk0 V c 2 t (ix2 p k) = V c main_v44 (ix2 (rowOf t p) k) := by
  obtain ⟨-, -, -, -, -, -, e0, e1, -⟩ := idx_facts t
  show V c main_v44 (((cfg0.win 2).blk t).view.emb (ix2 p k)) = V c main_v44 (ix2 (rowOf t p) k)
  refine congrArg (V c main_v44) (funext fun a => Fin.ext ?_)
  match a with
  | ⟨0, _⟩ => show win0_2.index t (0 : Fin 2) * 10000 + 1 * p.val = win0_12.index t (0 : Fin 2) * 10000 + p.val; omega
  | ⟨1, _⟩ => show win0_2.index t (1 : Fin 2) * 32 + 1 * k.val = k.val; omega

theorem row_ah (c : Dev nD) (t : Fin cfg0.N) (p : Fin 10000) (k : Fin 32) :
    iblk0 V c 3 t (ix2 p k) = V c main_v58 (ix2 (rowOf t p) k) := by
  obtain ⟨-, -, -, -, -, -, -, -, e0, e1, -⟩ := idx_facts t
  show V c main_v58 (((cfg0.win 3).blk t).view.emb (ix2 p k)) = V c main_v58 (ix2 (rowOf t p) k)
  refine congrArg (V c main_v58) (funext fun a => Fin.ext ?_)
  match a with
  | ⟨0, _⟩ => show win0_3.index t (0 : Fin 2) * 10000 + 1 * p.val = win0_12.index t (0 : Fin 2) * 10000 + p.val; omega
  | ⟨1, _⟩ => show win0_3.index t (1 : Fin 2) * 32 + 1 * k.val = k.val; omega

/-! ## The weight and bias windows' blocks are the whole arrays -/

theorem blk_Wxz (c : Dev nD) (t : Fin cfg0.N) : iblk0 V c 4 t = V c main_arg4 := by
  obtain ⟨⟨e0, e1, e2⟩, -⟩ := idx_weights t
  funext y
  show V c main_arg4 (((cfg0.win 4).blk t).view.emb y) = V c main_arg4 y
  refine congrArg (V c main_arg4) (funext fun a => Fin.ext ?_)
  match a with
  | ⟨0, _⟩ => show win0_4.index t (0 : Fin 3) * 2 + 1 * (y 0).val = (y 0).val; omega
  | ⟨1, _⟩ => show win0_4.index t (1 : Fin 3) * 32 + 1 * (y 1).val = (y 1).val; omega
  | ⟨2, _⟩ => show win0_4.index t (2 : Fin 3) * 32 + 1 * (y 2).val = (y 2).val; omega

theorem blk_bxz (c : Dev nD) (t : Fin cfg0.N) : iblk0 V c 5 t = V c main_arg5 := by
  obtain ⟨-, e0, -⟩ := idx_weights t
  funext y
  show V c main_arg5 (((cfg0.win 5).blk t).view.emb y) = V c main_arg5 y
  refine congrArg (V c main_arg5) (funext fun a => Fin.ext ?_)
  match a with
  | ⟨0, _⟩ => show win0_5.index t (0 : Fin 1) * 32 + 1 * (y 0).val = (y 0).val; omega

theorem blk_Whz (c : Dev nD) (t : Fin cfg0.N) : iblk0 V c 6 t = V c main_arg6 := by
  obtain ⟨-, -, ⟨e0, e1, e2⟩, -⟩ := idx_weights t
  funext y
  show V c main_arg6 (((cfg0.win 6).blk t).view.emb y) = V c main_arg6 y
  refine congrArg (V c main_arg6) (funext fun a => Fin.ext ?_)
  match a with
  | ⟨0, _⟩ => show win0_6.index t (0 : Fin 3) * 2 + 1 * (y 0).val = (y 0).val; omega
  | ⟨1, _⟩ => show win0_6.index t (1 : Fin 3) * 32 + 1 * (y 1).val = (y 1).val; omega
  | ⟨2, _⟩ => show win0_6.index t (2 : Fin 3) * 32 + 1 * (y 2).val = (y 2).val; omega

theorem blk_bhz (c : Dev nD) (t : Fin cfg0.N) : iblk0 V c 7 t = V c main_arg7 := by
  obtain ⟨-, -, -, e0, -⟩ := idx_weights t
  funext y
  show V c main_arg7 (((cfg0.win 7).blk t).view.emb y) = V c main_arg7 y
  refine congrArg (V c main_arg7) (funext fun a => Fin.ext ?_)
  match a with
  | ⟨0, _⟩ => show win0_7.index t (0 : Fin 1) * 32 + 1 * (y 0).val = (y 0).val; omega

/-! ## The update gate -/

/-- The update gate of the whole arrays as the region finds them. -/
abbrev updateOf (c : Dev nD) : GraphGru.Nodes 100000 32 :=
  GraphGru.gate (n := 100000) (V c main_arg0) (V c main_v44) (V c main_arg3) (V c main_v58) (V c main_arg4) (V c main_arg5) (V c main_arg6) (V c main_arg7)

/-- What point `t` writes back to the update gate's array is block `t` of the update gate of the whole arrays. -/
theorem flushed_update (c : Dev nD) (t : Fin cfg0.N) :
    (dat0 V c).flushed 12 t = ((cfg0.win 12).blk t).view.read (Elt Ideal) (updateOf V c) := by
  show (cfg0.win 12).cut (grid0.coords t) ((dat0 V c).after 12 t) = _
  rw [after0_12]
  unfold out0_12
  rw [View.canon_unit_zero hz2]
  simp only [View.ld_unit_zero (S := S10000x32) hz2]
  rw [pay_update, blk_Wxz, blk_bxz, blk_Whz, blk_bhz]
  obtain ⟨-, e1, -⟩ := idx_facts t
  funext j
  obtain ⟨p, q, rfl⟩ : ∃ (p : Fin 10000) (q : Fin 32), j = ix2 p q := ⟨j 0, j 1, eq_ix2 j⟩
  have hemb : ((cfg0.win 12).blk t).view.emb (ix2 p q) = ix2 (rowOf t p) q := funext fun a => Fin.ext (by
    match a with
    | ⟨0, _⟩ => show win0_12.index t (0 : Fin 2) * 10000 + 1 * p.val = win0_12.index t (0 : Fin 2) * 10000 + p.val; omega
    | ⟨1, _⟩ => show win0_12.index t (1 : Fin 2) * 32 + 1 * q.val = q.val; omega)
  show GraphGru.gate (iblk0 V c 0 t) (iblk0 V c 2 t) (iblk0 V c 1 t) (iblk0 V c 3 t) (V c main_arg4) (V c main_arg5) (V c main_arg6) (V c main_arg7) (ix2 p q)
      = updateOf V c (((cfg0.win 12).blk t).view.emb (ix2 p q))
  rw [hemb]
  exact GraphGru.gate_congr_row _ _ _ _ _ _ _ _ _ _ _ _ p (rowOf t p) (row_x V c t p) (row_ax V c t p) (row_h V c t p) (row_ah V c t p) q

/-- An index of the array is in point `t`'s block iff each coordinate is in the block's range on its axis. -/
theorem mem_blk_update (t : Fin cfg0.N) (i : S100000x32.Idx) :
    i ∈ ((cfg0.win 12).blk t).view.set ↔ ∀ a : Fin 2, win0_12.index t a * S10000x32.size a ≤ (i a).val ∧ (i a).val < win0_12.index t a * S10000x32.size a + S10000x32.size a := by
  show i ∈ ((View.whole main_v59_0).slice (win0_12.rect t)).set ↔ _
  rw [View.set_slice_whole, Rect.mem_set_unit]
  exact Iff.rfl

/-- The ten blocks tile the array: node `r` lies in block `r / 10000`. -/
theorem cover_update (i : S100000x32.Idx) :
    ∃ t : Fin cfg0.N, (cfg0.win 12).flush t = true ∧ i ∈ ((cfg0.win 12).blk t).view.set := by
  have hi0 : (i 0).val < 100000 := (i 0).isLt
  have hi1 : (i 1).val < 32 := (i 1).isLt
  obtain ⟨t, ht⟩ := idx_onto ⟨(i 0).val / 10000, by omega⟩
  have q0 : win0_12.index t (0 : Fin 2) = (i 0).val / 10000 := ht
  have hw0 : win0_12.index t (0 : Fin 2) = win0_12.index t (0 : Fin 2) := rfl
  have hw1 : win0_12.index t (1 : Fin 2) = 0 := (idx_facts t).2.1
  refine ⟨t, flush0_12 t, ?_⟩
  rw [mem_blk_update]
  intro a
  match a with
  | ⟨0, _⟩ => show win0_12.index t (0 : Fin 2) * 10000 ≤ (i 0).val ∧ (i 0).val < win0_12.index t (0 : Fin 2) * 10000 + 10000; omega
  | ⟨1, _⟩ => show win0_12.index t (1 : Fin 2) * 32 ≤ (i 1).val ∧ (i 1).val < win0_12.index t (1 : Fin 2) * 32 + 32; omega

/-- The array after the region: the specification's function of the arrays the region was entered with. -/
theorem arr_update (c : Dev nD) : (dat0 V c).arrAt 12 cfg0.N = updateOf V c :=
  (dat0 V c).arrAt_eq_of_cover 12 (updateOf V c) (fun t _ => flushed_update V c t) cover_update

/-! ## The reset gate and the scaled state -/

theorem idx_w8 (t : Fin cfg0.N) : win0_8.index t (0 : Fin 3) = 0 ∧ win0_8.index t (1 : Fin 3) = 0 ∧ win0_8.index t (2 : Fin 3) = 0 := (idx_weights t).2.2.2.2.1
theorem idx_w9 (t : Fin cfg0.N) : win0_9.index t (0 : Fin 1) = 0 := (idx_weights t).2.2.2.2.2.1
theorem idx_w10 (t : Fin cfg0.N) : win0_10.index t (0 : Fin 3) = 0 ∧ win0_10.index t (1 : Fin 3) = 0 ∧ win0_10.index t (2 : Fin 3) = 0 := (idx_weights t).2.2.2.2.2.2.1
theorem idx_w11 (t : Fin cfg0.N) : win0_11.index t (0 : Fin 1) = 0 := (idx_weights t).2.2.2.2.2.2.2

theorem blk_Wxr (c : Dev nD) (t : Fin cfg0.N) : iblk0 V c 8 t = V c main_arg8 := by
  have e := (idx_w8 t)
  obtain ⟨e0, e1, e2⟩ := e
  funext y
  show V c main_arg8 (((cfg0.win 8).blk t).view.emb y) = V c main_arg8 y
  refine congrArg (V c main_arg8) (funext fun a => Fin.ext ?_)
  match a with
  | ⟨0, _⟩ => show win0_8.index t (0 : Fin 3) * 2 + 1 * (y 0).val = (y 0).val; omega
  | ⟨1, _⟩ => show win0_8.index t (1 : Fin 3) * 32 + 1 * (y 1).val = (y 1).val; omega
  | ⟨2, _⟩ => show win0_8.index t (2 : Fin 3) * 32 + 1 * (y 2).val = (y 2).val; omega

theorem blk_bxr (c : Dev nD) (t : Fin cfg0.N) : iblk0 V c 9 t = V c main_arg9 := by
  have e0 := (idx_w9 t)
  funext y
  show V c main_arg9 (((cfg0.win 9).blk t).view.emb y) = V c main_arg9 y
  refine congrArg (V c main_arg9) (funext fun a => Fin.ext ?_)
  match a with
  | ⟨0, _⟩ => show win0_9.index t (0 : Fin 1) * 32 + 1 * (y 0).val = (y 0).val; omega

theorem blk_Whr (c : Dev nD) (t : Fin cfg0.N) : iblk0 V c 10 t = V c main_arg10 := by
  have e := (idx_w10 t)
  obtain ⟨e0, e1, e2⟩ := e
  funext y
  show V c main_arg10 (((cfg0.win 10).blk t).view.emb y) = V c main_arg10 y
  refine congrArg (V c main_arg10) (funext fun a => Fin.ext ?_)
  match a with
  | ⟨0, _⟩ => show win0_10.index t (0 : Fin 3) * 2 + 1 * (y 0).val = (y 0).val; omega
  | ⟨1, _⟩ => show win0_10.index t (1 : Fin 3) * 32 + 1 * (y 1).val = (y 1).val; omega
  | ⟨2, _⟩ => show win0_10.index t (2 : Fin 3) * 32 + 1 * (y 2).val = (y 2).val; omega

theorem blk_bhr (c : Dev nD) (t : Fin cfg0.N) : iblk0 V c 11 t = V c main_arg11 := by
  have e0 := (idx_w11 t)
  funext y
  show V c main_arg11 (((cfg0.win 11).blk t).view.emb y) = V c main_arg11 y
  refine congrArg (V c main_arg11) (funext fun a => Fin.ext ?_)
  match a with
  | ⟨0, _⟩ => show win0_11.index t (0 : Fin 1) * 32 + 1 * (y 0).val = (y 0).val; omega

theorem idx13 (t : Fin cfg0.N) : win0_13.index t (0 : Fin 2) = win0_12.index t (0 : Fin 2) ∧ win0_13.index t (1 : Fin 2) = 0 :=
  ⟨(idx_facts t).2.2.2.2.2.2.2.2.2.2.1, (idx_facts t).2.2.2.2.2.2.2.2.2.2.2.1⟩
theorem idx14 (t : Fin cfg0.N) : win0_14.index t (0 : Fin 2) = win0_12.index t (0 : Fin 2) ∧ win0_14.index t (1 : Fin 2) = 0 :=
  ⟨(idx_facts t).2.2.2.2.2.2.2.2.2.2.2.2.1, (idx_facts t).2.2.2.2.2.2.2.2.2.2.2.2.2⟩

/-- A re-laying of a block to its own shape changes nothing. -/
theorem pay3_id (v : Vec Ideal S10000x32 .f32) : k0_pay3 v = v := by unfold k0_pay3; exact shapeCast_self _ _
theorem pay4_id (v : Vec Ideal S10000x32 .f32) : k0_pay4 v = v := by unfold k0_pay4; exact shapeCast_self _ _

/-- The reset gate's payload: the same gate with the reset weights. -/
theorem pay_reset (x h : Vec Ideal S10000x32 .f32) (ax ah : FVec Ideal S10000x32 .f32) (Wx : Vec Ideal S2x32x32 .f32) (bx : Vec Ideal S32 .f32)
    (Wh : Vec Ideal S2x32x32 .f32) (bh : Vec Ideal S32 .f32) :
    k0_pay1 x h ax ah (View.ld Wx r0_1) (View.ld Wx r0_2) (View.ld bx r0_3) (View.ld Wh r0_1) (View.ld Wh r0_2) (View.ld bh r0_3)
      = GraphGru.gate x ax h ah Wx bx Wh bh := by
  funext y
  obtain ⟨p, q, rfl⟩ : ∃ (p : Fin 10000) (q : Fin 32), y = ix2 p q := ⟨y 0, y 1, eq_ix2 y⟩
  have e1 := conv_at x ax Wx bx p q
  have e2 := conv_at h ah Wh bh p q
  unfold k0_pay1 GraphGru.gate
  exact congrArg Ideal.logistic (congrArg₂ (· + ·) e1 e2)

/-- The third payload: the state times the reset gate, entry by entry. -/
theorem pay_scaled (x h : Vec Ideal S10000x32 .f32) (ax ah : FVec Ideal S10000x32 .f32) (Wx : Vec Ideal S2x32x32 .f32) (bx : Vec Ideal S32 .f32)
    (Wh : Vec Ideal S2x32x32 .f32) (bh : Vec Ideal S32 .f32) :
    k0_pay2 x h ax ah (View.ld Wx r0_1) (View.ld Wx r0_2) (View.ld bx r0_3) (View.ld Wh r0_1) (View.ld Wh r0_2) (View.ld bh r0_3)
      = GraphGru.scaled h (GraphGru.gate x ax h ah Wx bx Wh bh) := by
  unfold k0_pay2
  rw [pay_reset]
  rfl

/-- The reset gate of the whole arrays as the region finds them. -/
abbrev resetOf (c : Dev nD) : GraphGru.Nodes 100000 32 :=
  GraphGru.gate (n := 100000) (V c main_arg0) (V c main_v44) (V c main_arg3) (V c main_v58) (V c main_arg8) (V c main_arg9) (V c main_arg10) (V c main_arg11)

/-- The state scaled by the reset gate, of the whole arrays. -/
abbrev scaledOf (c : Dev nD) : GraphGru.Nodes 100000 32 := GraphGru.scaled (V c main_arg3) (resetOf V c)

theorem flushed_reset (c : Dev nD) (t : Fin cfg0.N) :
    (dat0 V c).flushed 13 t = ((cfg0.win 13).blk t).view.read (Elt Ideal) (resetOf V c) := by
  show (cfg0.win 13).cut (grid0.coords t) ((dat0 V c).after 13 t) = _
  rw [after0_13]
  unfold out0_13
  rw [View.canon_unit_zero hz2]
  simp only [View.ld_unit_zero (S := S10000x32) hz2]
  rw [pay3_id, pay4_id, pay_reset, blk_Wxr, blk_bxr, blk_Whr, blk_bhr]
  obtain ⟨e0, e1⟩ := idx13 t
  funext j
  obtain ⟨p, q, rfl⟩ : ∃ (p : Fin 10000) (q : Fin 32), j = ix2 p q := ⟨j 0, j 1, eq_ix2 j⟩
  have hemb : ((cfg0.win 13).blk t).view.emb (ix2 p q) = ix2 (rowOf t p) q := funext fun a => Fin.ext (by
    match a with
    | ⟨0, _⟩ => show win0_13.index t (0 : Fin 2) * 10000 + 1 * p.val = win0_12.index t (0 : Fin 2) * 10000 + p.val; omega
    | ⟨1, _⟩ => show win0_13.index t (1 : Fin 2) * 32 + 1 * q.val = q.val; omega)
  show GraphGru.gate (iblk0 V c 0 t) (iblk0 V c 2 t) (iblk0 V c 1 t) (iblk0 V c 3 t) (V c main_arg8) (V c main_arg9) (V c main_arg10) (V c main_arg11) (ix2 p q)
      = resetOf V c (((cfg0.win 13).blk t).view.emb (ix2 p q))
  rw [hemb]
  exact GraphGru.gate_congr_row _ _ _ _ _ _ _ _ _ _ _ _ p (rowOf t p) (row_x V c t p) (row_ax V c t p) (row_h V c t p) (row_ah V c t p) q

/-- An index of the array is in point `t`'s block iff each coordinate is in the block's range on its axis. -/
theorem mem_blk_reset (t : Fin cfg0.N) (i : S100000x32.Idx) :
    i ∈ ((cfg0.win 13).blk t).view.set ↔ ∀ a : Fin 2, win0_13.index t a * S10000x32.size a ≤ (i a).val ∧ (i a).val < win0_13.index t a * S10000x32.size a + S10000x32.size a := by
  show i ∈ ((View.whole main_v59_1).slice (win0_13.rect t)).set ↔ _
  rw [View.set_slice_whole, Rect.mem_set_unit]
  exact Iff.rfl

/-- The ten blocks tile the array: node `r` lies in block `r / 10000`. -/
theorem cover_reset (i : S100000x32.Idx) :
    ∃ t : Fin cfg0.N, (cfg0.win 13).flush t = true ∧ i ∈ ((cfg0.win 13).blk t).view.set := by
  have hi0 : (i 0).val < 100000 := (i 0).isLt
  have hi1 : (i 1).val < 32 := (i 1).isLt
  obtain ⟨t, ht⟩ := idx_onto ⟨(i 0).val / 10000, by omega⟩
  have q0 : win0_12.index t (0 : Fin 2) = (i 0).val / 10000 := ht
  have hw0 : win0_13.index t (0 : Fin 2) = win0_12.index t (0 : Fin 2) := (idx13 t).1
  have hw1 : win0_13.index t (1 : Fin 2) = 0 := (idx13 t).2
  refine ⟨t, flush0_13 t, ?_⟩
  rw [mem_blk_reset]
  intro a
  match a with
  | ⟨0, _⟩ => show win0_13.index t (0 : Fin 2) * 10000 ≤ (i 0).val ∧ (i 0).val < win0_13.index t (0 : Fin 2) * 10000 + 10000; omega
  | ⟨1, _⟩ => show win0_13.index t (1 : Fin 2) * 32 ≤ (i 1).val ∧ (i 1).val < win0_13.index t (1 : Fin 2) * 32 + 32; omega

/-- The array after the region: the specification's function of the arrays the region was entered with. -/
theorem arr_reset (c : Dev nD) : (dat0 V c).arrAt 13 cfg0.N = resetOf V c :=
  (dat0 V c).arrAt_eq_of_cover 13 (resetOf V c) (fun t _ => flushed_reset V c t) cover_reset

theorem flushed_scaled (c : Dev nD) (t : Fin cfg0.N) :
    (dat0 V c).flushed 14 t = ((cfg0.win 14).blk t).view.read (Elt Ideal) (scaledOf V c) := by
  show (cfg0.win 14).cut (grid0.coords t) ((dat0 V c).after 14 t) = _
  rw [after0_14]
  unfold out0_14
  rw [View.canon_unit_zero hz2]
  simp only [View.ld_unit_zero (S := S10000x32) hz2]
  rw [pay3_id, pay4_id, pay_scaled, blk_Wxr, blk_bxr, blk_Whr, blk_bhr]
  obtain ⟨e0, e1⟩ := idx14 t
  funext j
  obtain ⟨p, q, rfl⟩ : ∃ (p : Fin 10000) (q : Fin 32), j = ix2 p q := ⟨j 0, j 1, eq_ix2 j⟩
  have hemb : ((cfg0.win 14).blk t).view.emb (ix2 p q) = ix2 (rowOf t p) q := funext fun a => Fin.ext (by
    match a with
    | ⟨0, _⟩ => show win0_14.index t (0 : Fin 2) * 10000 + 1 * p.val = win0_12.index t (0 : Fin 2) * 10000 + p.val; omega
    | ⟨1, _⟩ => show win0_14.index t (1 : Fin 2) * 32 + 1 * q.val = q.val; omega)
  show GraphGru.scaled (iblk0 V c 1 t) (GraphGru.gate (iblk0 V c 0 t) (iblk0 V c 2 t) (iblk0 V c 1 t) (iblk0 V c 3 t) (V c main_arg8) (V c main_arg9) (V c main_arg10) (V c main_arg11)) (ix2 p q)
      = scaledOf V c (((cfg0.win 14).blk t).view.emb (ix2 p q))
  rw [hemb]
  exact GraphGru.scaled_congr _ _ _ _ _ _ (row_h V c t p q)
    (GraphGru.gate_congr_row _ _ _ _ _ _ _ _ _ _ _ _ p (rowOf t p) (row_x V c t p) (row_ax V c t p) (row_h V c t p) (row_ah V c t p) q)

/-- An index of the array is in point `t`'s block iff each coordinate is in the block's range on its axis. -/
theorem mem_blk_scaled (t : Fin cfg0.N) (i : S100000x32.Idx) :
    i ∈ ((cfg0.win 14).blk t).view.set ↔ ∀ a : Fin 2, win0_14.index t a * S10000x32.size a ≤ (i a).val ∧ (i a).val < win0_14.index t a * S10000x32.size a + S10000x32.size a := by
  show i ∈ ((View.whole main_v59_2).slice (win0_14.rect t)).set ↔ _
  rw [View.set_slice_whole, Rect.mem_set_unit]
  exact Iff.rfl

/-- The ten blocks tile the array: node `r` lies in block `r / 10000`. -/
theorem cover_scaled (i : S100000x32.Idx) :
    ∃ t : Fin cfg0.N, (cfg0.win 14).flush t = true ∧ i ∈ ((cfg0.win 14).blk t).view.set := by
  have hi0 : (i 0).val < 100000 := (i 0).isLt
  have hi1 : (i 1).val < 32 := (i 1).isLt
  obtain ⟨t, ht⟩ := idx_onto ⟨(i 0).val / 10000, by omega⟩
  have q0 : win0_12.index t (0 : Fin 2) = (i 0).val / 10000 := ht
  have hw0 : win0_14.index t (0 : Fin 2) = win0_12.index t (0 : Fin 2) := (idx14 t).1
  have hw1 : win0_14.index t (1 : Fin 2) = 0 := (idx14 t).2
  refine ⟨t, flush0_14 t, ?_⟩
  rw [mem_blk_scaled]
  intro a
  match a with
  | ⟨0, _⟩ => show win0_14.index t (0 : Fin 2) * 10000 ≤ (i 0).val ∧ (i 0).val < win0_14.index t (0 : Fin 2) * 10000 + 10000; omega
  | ⟨1, _⟩ => show win0_14.index t (1 : Fin 2) * 32 ≤ (i 1).val ∧ (i 1).val < win0_14.index t (1 : Fin 2) * 32 + 32; omega

/-- The array after the region: the specification's function of the arrays the region was entered with. -/
theorem arr_scaled (c : Dev nD) : (dat0 V c).arrAt 14 cfg0.N = scaledOf V c :=
  (dat0 V c).arrAt_eq_of_cover 14 (scaledOf V c) (fun t _ => flushed_scaled V c t) cover_scaled

end Cert.KernelIdeal.Gates

end
-- ==== Proof.FinalBlocks.lean ====
/-
  The second kernel region, read as values: over ten row blocks of 10000 nodes it writes the new state and the head's
  output. The candidate state is the hyperbolic tangent of the input's convolution plus the reset-scaled state's; the new
  state keeps the old one where the update gate is open and lets the candidate in elsewhere; the head is a 32 × 4 matrix
  product of the rectified state plus a bias. Each output block is the specification's function of the same rows of the
  node arrays, so the blocks together are that function of the whole arrays.

  Everything is stated at the contents `V` the region is entered with, whatever they are.
-/
import proofs.«404224_j77799037599894_1_alg».proof.Proof.BlockOps

set_option maxRecDepth 16384

noncomputable section

namespace Cert.KernelIdeal.FinalState

open Cert.KernelIdeal Cert.KernelIdeal.Gen Cert.KernelIdeal.BlockOps Idealize.ShloMosaic Idealize.ShloMosaic.TcCoe Idealize.ShloMosaic.ValueIdx

/-! ## The head's product and bias on a block -/

theorem lhs_head_0 (i : S10000x4.Idx) (q : dot_S10000x32_S32x4_S10000x4_1_0_0_1_n_n.contr.Idx) :
    (dot_S10000x32_S32x4_S10000x4_1_0_0_1_n_n.lhsIdx i q 0).val = (i 0).val := by
  unfold DotDims.lhsIdx
  rw [dif_neg (show ¬(0 : Fin S10000x32.rank) ∈ dot_S10000x32_S32x4_S10000x4_1_0_0_1_n_n.lhsBatch by decide), dif_pos (show (0 : Fin S10000x32.rank) ∈ dot_S10000x32_S32x4_S10000x4_1_0_0_1_n_n.lhsNonContracting by decide)]
  rfl
theorem lhs_head_1 (i : S10000x4.Idx) (q : dot_S10000x32_S32x4_S10000x4_1_0_0_1_n_n.contr.Idx) :
    (dot_S10000x32_S32x4_S10000x4_1_0_0_1_n_n.lhsIdx i q 1).val = (q ⟨0, by decide⟩).val :=
  dot_S10000x32_S32x4_S10000x4_1_0_0_1_n_n.lhsIdx_val_of_single rfl i q
theorem rhs_head_0 (i : S10000x4.Idx) (q : dot_S10000x32_S32x4_S10000x4_1_0_0_1_n_n.contr.Idx) :
    (dot_S10000x32_S32x4_S10000x4_1_0_0_1_n_n.rhsIdx i q 0).val = (q ⟨0, by decide⟩).val :=
  dot_S10000x32_S32x4_S10000x4_1_0_0_1_n_n.rhsIdx_val_of_single rfl i q
theorem rhs_head_1 (i : S10000x4.Idx) (q : dot_S10000x32_S32x4_S10000x4_1_0_0_1_n_n.contr.Idx) :
    (dot_S10000x32_S32x4_S10000x4_1_0_0_1_n_n.rhsIdx i q 1).val = (i 1).val := by
  unfold DotDims.rhsIdx
  rw [dif_neg (show ¬(1 : Fin S32x4.rank) ∈ dot_S10000x32_S32x4_S10000x4_1_0_0_1_n_n.rhsBatch by decide), dif_pos (show (1 : Fin S32x4.rank) ∈ dot_S10000x32_S32x4_S10000x4_1_0_0_1_n_n.rhsNonContracting by decide)]
  rfl

/-- Row p of the block against column q of the head's 32 × 4 matrix. -/
theorem matmul_head (u : FVec Ideal S10000x32 .f32) (w : FVec Ideal S32x4 .f32) (p : Fin 10000) (q : Fin 4) :
    matmul dot_S10000x32_S32x4_S10000x4_1_0_0_1_n_n none u w (constant S10000x4 .f32 0x00000000#32) (ix2 p q)
      = ∑ k : Fin 32, u (ix2 p k) * w (ix2 k q) := by
  simp only [matmul]
  rw [Ideal.matmul_constant_zero_apply, ← Equiv.sum_comp (contrEquiv1 dot_S10000x32_S32x4_S10000x4_1_0_0_1_n_n 32 rfl rfl).symm]
  refine Finset.sum_congr rfl fun k _ => ?_
  have hk := contrEquiv1_symm_val dot_S10000x32_S32x4_S10000x4_1_0_0_1_n_n 32 rfl rfl k
  have el : dot_S10000x32_S32x4_S10000x4_1_0_0_1_n_n.lhsIdx (ix2 p q) ((contrEquiv1 dot_S10000x32_S32x4_S10000x4_1_0_0_1_n_n 32 rfl rfl).symm k) = ix2 p k := funext fun a => Fin.ext (by
    match a with
    | ⟨0, _⟩ => exact lhs_head_0 _ _
    | ⟨1, _⟩ => exact (lhs_head_1 _ _).trans hk)
  have er : dot_S10000x32_S32x4_S10000x4_1_0_0_1_n_n.rhsIdx (ix2 p q) ((contrEquiv1 dot_S10000x32_S32x4_S10000x4_1_0_0_1_n_n 32 rfl rfl).symm k) = ix2 k q := funext fun a => Fin.ext (by
    match a with
    | ⟨0, _⟩ => exact (rhs_head_0 _ _).trans hk
    | ⟨1, _⟩ => exact rhs_head_1 _ _)
  rw [el, er]

/-- The head's bias, re-laid as one row and repeated down the block: at (p,q) it is the bias at q. -/
theorem bias4_at (b : Vec Ideal S4 .f32) (p : Fin 10000) (q : Fin 4) :
    broadcastTo S10000x4 (shapeCast S1x4 (View.ld b r1_5) shapeCasts_S4_S1x4) broadcasts_S1x4_S10000x4 (ix2 p q) = b (ix1 q) := by
  rw [broadcastTo_apply (shapeCast S1x4 (View.ld b r1_5) shapeCasts_S4_S1x4) broadcasts_S1x4_S10000x4 (ix2 p q) (ix2 (0 : Fin 1) q) (fun a => by
    match a with
    | ⟨0, _⟩ => rfl
    | ⟨1, _⟩ => rfl)]
  rw [shapeCast_apply (View.ld b r1_5) shapeCasts_S4_S1x4 (ix2 (0 : Fin 1) q) (ix1 q) (by
    rw [Shape.rowMajor_val_one, Shape.rowMajor_val_two]
    show q.val = 0 * 4 + q.val
    omega)]
  show b (r1_5.idx (ix1 q)) = b (ix1 q)
  refine congrArg b (funext fun a => Fin.ext ?_)
  match a with
  | ⟨0, _⟩ => show 0 + 1 * q.val = q.val; omega

theorem hz2 : (![0, 0] : Fin 2 → Nat) = fun _ => 0 := funext fun a => by fin_cases a <;> rfl

/-! ## What the body stores, as the specification's functions of its loaded blocks -/

/-- A re-laying of a block to its own shape changes nothing. -/
theorem pay3_id (v : Vec Ideal S10000x32 .f32) : k1_pay3 v = v := by unfold k1_pay3; exact shapeCast_self _ _

/-- The input's convolution with the candidate's weights. -/
theorem pay_hx (x ax : Vec Ideal S10000x32 .f32) (Wx : Vec Ideal S2x32x32 .f32) (bx : Vec Ideal S32 .f32) (p : Fin 10000) (q : Fin 32) :
    k1_pay4 x ax (View.ld Wx r1_1) (View.ld Wx r1_2) (View.ld bx r1_3) (ix2 p q) = GraphGru.conv x ax Wx bx p q := by
  have e := conv_at x ax Wx bx p q
  unfold k1_pay4
  rw [shapeCast_self]
  exact e

/-- The reset-scaled state's convolution: the two products come from one payload, the bias is added after. -/
theorem pay_hh (hr ahr : Vec Ideal S10000x32 .f32) (Wh : Vec Ideal S2x32x32 .f32) (bh : Vec Ideal S32 .f32) (p : Fin 10000) (q : Fin 32) :
    (addf (k1_pay5 hr ahr (View.ld Wh r1_1) (View.ld Wh r1_2))
      (broadcastTo S10000x32 (shapeCast S1x32 (View.ld bh r1_3) shapeCasts_S32_S1x32 : FVec Ideal S1x32 .f32) broadcasts_S1x32_S10000x32 : FVec Ideal S10000x32 .f32)) (ix2 p q)
      = GraphGru.conv hr ahr Wh bh p q := by
  have e := conv_at hr ahr Wh bh p q
  unfold k1_pay5
  rw [shapeCast_self, shapeCast_self]
  exact e

/-- The new state's payload: the update gate keeps the old state, its complement lets the candidate in. -/
theorem pay_state (z h x ax hr ahr : Vec Ideal S10000x32 .f32) (Wx : Vec Ideal S2x32x32 .f32) (bx : Vec Ideal S32 .f32)
    (Wh : Vec Ideal S2x32x32 .f32) (bh : Vec Ideal S32 .f32) :
    k1_pay1 (k1_pay3 z) h (k1_pay4 x ax (View.ld Wx r1_1) (View.ld Wx r1_2) (View.ld bx r1_3)) (k1_pay5 hr ahr (View.ld Wh r1_1) (View.ld Wh r1_2)) (View.ld bh r1_3)
      = GraphGru.blend z h (GraphGru.candidate x ax hr ahr Wx bx Wh bh) := by
  funext y
  obtain ⟨p, q, rfl⟩ : ∃ (p : Fin 10000) (q : Fin 32), y = ix2 p q := ⟨y 0, y 1, eq_ix2 y⟩
  have e1 := pay_hx x ax Wx bx p q
  have e2 := pay_hh hr ahr Wh bh p q
  rw [pay3_id]
  unfold k1_pay1 GraphGru.blend GraphGru.candidate
  exact congrArg (z (ix2 p q) * h (ix2 p q) + ·) (congrArg ((GraphGru.oneW - z (ix2 p q)) * ·) (congrArg Ideal.tanh (congrArg₂ (· + ·) e1 e2)))

/-- The head's payload: the rectified new state through the 32 × 4 matrix, plus the bias. -/
theorem pay_out (z h x ax hr ahr : Vec Ideal S10000x32 .f32) (Wx : Vec Ideal S2x32x32 .f32) (bx : Vec Ideal S32 .f32)
    (Wh : Vec Ideal S2x32x32 .f32) (bh : Vec Ideal S32 .f32) (lw : Vec Ideal S32x4 .f32) (lb : Vec Ideal S4 .f32) :
    k1_pay2 (k1_pay3 z) h (k1_pay4 x ax (View.ld Wx r1_1) (View.ld Wx r1_2) (View.ld bx r1_3)) (k1_pay5 hr ahr (View.ld Wh r1_1) (View.ld Wh r1_2)) (View.ld bh r1_3)
        (View.ld lw r1_4) (View.ld lb r1_5)
      = GraphGru.head (GraphGru.blend z h (GraphGru.candidate x ax hr ahr Wx bx Wh bh)) lw lb := by
  funext y
  obtain ⟨p, q, rfl⟩ : ∃ (p : Fin 10000) (q : Fin 4), y = ix2 p q := ⟨y 0, y 1, eq_ix2 y⟩
  unfold k1_pay2
  rw [pay_state, View.ld_unit_zero (S := S32x4) hz2]
  unfold GraphGru.head
  rw [addf_apply, matmul_head, bias4_at]
  rfl

variable (V : (c : Dev nD) → (b : Ref sig .tc) → Buf (Elt Ideal) ((c : Thread nD τ).loc b))

/-! ## The printed index maps, decided over the ten grid points -/

theorem idx_facts : ∀ t : Fin cfg1.N,
    win1_12.index t (0 : Fin 2) < 10 ∧ win1_12.index t (1 : Fin 2) = 0
    ∧ win1_0.index t (0 : Fin 2) = win1_12.index t (0 : Fin 2) ∧ win1_0.index t (1 : Fin 2) = 0
    ∧ win1_1.index t (0 : Fin 2) = win1_12.index t (0 : Fin 2) ∧ win1_1.index t (1 : Fin 2) = 0
    ∧ win1_2.index t (0 : Fin 2) = win1_12.index t (0 : Fin 2) ∧ win1_2.index t (1 : Fin 2) = 0
    ∧ win1_3.index t (0 : Fin 2) = win1_12.index t (0 : Fin 2) ∧ win1_3.index t (1 : Fin 2) = 0
    ∧ win1_4.index t (0 : Fin 2) = win1_12.index t (0 : Fin 2) ∧ win1_4.index t (1 : Fin 2) = 0
    ∧ win1_5.index t (0 : Fin 2) = win1_12.index t (0 : Fin 2) ∧ win1_5.index t (1 : Fin 2) = 0
    ∧ win1_13.index t (0 : Fin 2) = win1_12.index t (0 : Fin 2) ∧ win1_13.index t (1 : Fin 2) = 0 :=
  (by decide +kernel : ∀ t : Fin grid1.N, _)

theorem idx_weights : ∀ t : Fin cfg1.N,
    (win1_6.index t (0 : Fin 3) = 0 ∧ win1_6.index t (1 : Fin 3) = 0 ∧ win1_6.index t (2 : Fin 3) = 0)
    ∧ win1_7.index t (0 : Fin 1) = 0
    ∧ (win1_8.index t (0 : Fin 3) = 0 ∧ win1_8.index t (1 : Fin 3) = 0 ∧ win1_8.index t (2 : Fin 3) = 0)
    ∧ win1_9.index t (0 : Fin 1) = 0
    ∧ (win1_10.index t (0 : Fin 2) = 0 ∧ win1_10.index t (1 : Fin 2) = 0)
    ∧ win1_11.index t (0 : Fin 1) = 0 :=
  (by decide +kernel : ∀ t : Fin grid1.N, _)

theorem idx_onto : ∀ q0 : Fin 10, ∃ t : Fin cfg1.N, win1_12.index t (0 : Fin 2) = q0.val :=
  (by decide +kernel : ∀ q0 : Fin 10, ∃ t : Fin grid1.N, win1_12.index t (0 : Fin 2) = q0.val)

theorem idx_in0 (t : Fin cfg1.N) : win1_0.index t (0 : Fin 2) = win1_12.index t (0 : Fin 2) ∧ win1_0.index t (1 : Fin 2) = 0 := ⟨(idx_facts t).2.2.1, (idx_facts t).2.2.2.1⟩
theorem idx_in1 (t : Fin cfg1.N) : win1_1.index t (0 : Fin 2) = win1_12.index t (0 : Fin 2) ∧ win1_1.index t (1 : Fin 2) = 0 := ⟨(idx_facts t).2.2.2.2.1, (idx_facts t).2.2.2.2.2.1⟩
theorem idx_in2 (t : Fin cfg1.N) : win1_2.index t (0 : Fin 2) = win1_12.index t (0 : Fin 2) ∧ win1_2.index t (1 : Fin 2) = 0 := ⟨(idx_facts t).2.2.2.2.2.2.1, (idx_facts t).2.2.2.2.2.2.2.1⟩
theorem idx_in3 (t : Fin cfg1.N) : win1_3.index t (0 : Fin 2) = win1_12.index t (0 : Fin 2) ∧ win1_3.index t (1 : Fin 2) = 0 := ⟨(idx_facts t).2.2.2.2.2.2.2.2.1, (idx_facts t).2.2.2.2.2.2.2.2.2.1⟩
theorem idx_in4 (t : Fin cfg1.N) : win1_4.index t (0 : Fin 2) = win1_12.index t (0 : Fin 2) ∧ win1_4.index t (1 : Fin 2) = 0 := ⟨(idx_facts t).2.2.2.2.2.2.2.2.2.2.1, (idx_facts t).2.2.2.2.2.2.2.2.2.2.2.1⟩
theorem idx_in5 (t : Fin cfg1.N) : win1_5.index t (0 : Fin 2) = win1_12.index t (0 : Fin 2) ∧ win1_5.index t (1 : Fin 2) = 0 := ⟨(idx_facts t).2.2.2.2.2.2.2.2.2.2.2.2.1, (idx_facts t).2.2.2.2.2.2.2.2.2.2.2.2.2.1⟩
theorem idx13 (t : Fin cfg1.N) : win1_13.index t (0 : Fin 2) = win1_12.index t (0 : Fin 2) ∧ win1_13.index t (1 : Fin 2) = 0 := ⟨(idx_facts t).2.2.2.2.2.2.2.2.2.2.2.2.2.2.1, (idx_facts t).2.2.2.2.2.2.2.2.2.2.2.2.2.2.2⟩
theorem idx_w6 (t : Fin cfg1.N) : win1_6.index t (0 : Fin 3) = 0 ∧ win1_6.index t (1 : Fin 3) = 0 ∧ win1_6.index t (2 : Fin 3) = 0 := (idx_weights t).1
theorem idx_w7 (t : Fin cfg1.N) : win1_7.index t (0 : Fin 1) = 0 := (idx_weights t).2.1
theorem idx_w8 (t : Fin cfg1.N) : win1_8.index t (0 : Fin 3) = 0 ∧ win1_8.index t (1 : Fin 3) = 0 ∧ win1_8.index t (2 : Fin 3) = 0 := (idx_weights t).2.2.1
theorem idx_w9 (t : Fin cfg1.N) : win1_9.index t (0 : Fin 1) = 0 := (idx_weights t).2.2.2.1
theorem idx_w10 (t : Fin cfg1.N) : win1_10.index t (0 : Fin 2) = 0 ∧ win1_10.index t (1 : Fin 2) = 0 := (idx_weights t).2.2.2.2.1
theorem idx_w11 (t : Fin cfg1.N) : win1_11.index t (0 : Fin 1) = 0 := (idx_weights t).2.2.2.2.2

/-! ## The node windows' blocks are rows of the arrays; the weight windows' blocks are the whole arrays -/

/-- The row of the arrays that row `p` of point `t`'s blocks is. -/
abbrev rowOf (t : Fin cfg1.N) (p : Fin 10000) : Fin 100000 :=
  ⟨win1_12.index t (0 : Fin 2) * 10000 + p.val, by have := (idx_facts t).1; have := p.isLt; omega⟩

theorem row_x (c : Dev nD) (t : Fin cfg1.N) (p : Fin 10000) (k : Fin 32) :
    iblk1 V c 0 t (ix2 p k) = V c main_arg0 (ix2 (rowOf t p) k) := by
  obtain ⟨e0, e1⟩ := idx_in0 t
  show V c main_arg0 (((cfg1.win 0).blk t).view.emb (ix2 p k)) = V c main_arg0 (ix2 (rowOf t p) k)
  refine congrArg (V c main_arg0) (funext fun a => Fin.ext ?_)
  match a with
  | ⟨0, _⟩ => show win1_0.index t (0 : Fin 2) * 10000 + 1 * p.val = win1_12.index t (0 : Fin 2) * 10000 + p.val; omega
  | ⟨1, _⟩ => show win1_0.index t (1 : Fin 2) * 32 + 1 * k.val = k.val; omega

theorem row_ax (c : Dev nD) (t : Fin cfg1.N) (p : Fin 10000) (k : Fin 32) :
    iblk1 V c 1 t (ix2 p k) = V c main_v44 (ix2 (rowOf t p) k) := by
  obtain ⟨e0, e1⟩ := idx_in1 t
  show V c main_v44 (((cfg1.win 1).blk t).view.emb (ix2 p k)) = V c main_v44 (ix2 (rowOf t p) k)
  refine congrArg (V c main_v44) (funext fun a => Fin.ext ?_)
  match a with
  | ⟨0, _⟩ => show win1_1.index t (0 : Fin 2) * 10000 + 1 * p.val = win1_12.index t (0 : Fin 2) * 10000 + p.val; omega
  | ⟨1, _⟩ => show win1_1.index t (1 : Fin 2) * 32 + 1 * k.val = k.val; omega

theorem row_hr (c : Dev nD) (t : Fin cfg1.N) (p : Fin 10000) (k : Fin 32) :
    iblk1 V c 2 t (ix2 p k) = V c main_v59_2 (ix2 (rowOf t p) k) := by
  obtain ⟨e0, e1⟩ := idx_in2 t
  show V c main_v59_2 (((cfg1.win 2).blk t).view.emb (ix2 p k)) = V c main_v59_2 (ix2 (rowOf t p) k)
  refine congrArg (V c main_v59_2) (funext fun a => Fin.ext ?_)
  match a with
  | ⟨0, _⟩ => show win1_2.index t (0 : Fin 2) * 10000 + 1 * p.val = win1_12.index t (0 : Fin 2) * 10000 + p.val; omega
  | ⟨1, _⟩ => show win1_2.index t (1 : Fin 2) * 32 + 1 * k.val = k.val; omega

theorem row_ahr (c : Dev nD) (t : Fin cfg1.N) (p : Fin 10000) (k : Fin 32) :
    iblk1 V c 3 t (ix2 p k) = V c main_v73 (ix2 (rowOf t p) k) := by
  obtain ⟨e0, e1⟩ := idx_in3 t
  show V c main_v73 (((cfg1.win 3).blk t).view.emb (ix2 p k)) = V c main_v73 (ix2 (rowOf t p) k)
  refine congrArg (V c main_v73) (funext fun a => Fin.ext ?_)
  match a with
  | ⟨0, _⟩ => show win1_3.index t (0 : Fin 2) * 10000 + 1 * p.val = win1_12.index t (0 : Fin 2) * 10000 + p.val; omega
  | ⟨1, _⟩ => show win1_3.index t (1 : Fin 2) * 32 + 1 * k.val = k.val; omega

theorem row_z (c : Dev nD) (t : Fin cfg1.N) (p : Fin 10000) (k : Fin 32) :
    iblk1 V c 4 t (ix2 p k) = V c main_v59_0 (ix2 (rowOf t p) k) := by
  obtain ⟨e0, e1⟩ := idx_in4 t
  show V c main_v59_0 (((cfg1.win 4).blk t).view.emb (ix2 p k)) = V c main_v59_0 (ix2 (rowOf t p) k)
  refine congrArg (V c main_v59_0) (funext fun a => Fin.ext ?_)
  match a with
  | ⟨0, _⟩ => show win1_4.index t (0 : Fin 2) * 10000 + 1 * p.val = win1_12.index t (0 : Fin 2) * 10000 + p.val; omega
  | ⟨1, _⟩ => show win1_4.index t (1 : Fin 2) * 32 + 1 * k.val = k.val; omega

theorem row_h (c : Dev nD) (t : Fin cfg1.N) (p : Fin 10000) (k : Fin 32) :
    iblk1 V c 5 t (ix2 p k) = V c main_arg3 (ix2 (rowOf t p) k) := by
  obtain ⟨e0, e1⟩ := idx_in5 t
  show V c main_arg3 (((cfg1.win 5).blk t).view.emb (ix2 p k)) = V c main_arg3 (ix2 (rowOf t p) k)
  refine congrArg (V c main_arg3) (funext fun a => Fin.ext ?_)
  match a with
  | ⟨0, _⟩ => show win1_5.index t (0 : Fin 2) * 10000 + 1 * p.val = win1_12.index t (0 : Fin 2) * 10000 + p.val; omega
  | ⟨1, _⟩ => show win1_5.index t (1 : Fin 2) * 32 + 1 * k.val = k.val; omega

theorem blk_Wxh (c : Dev nD) (t : Fin cfg1.N) : iblk1 V c 6 t = V c main_arg12 := by
  have e := (idx_w6 t)
  obtain ⟨e0, e1, e2⟩ := e
  funext y
  show V c main_arg12 (((cfg1.win 6).blk t).view.emb y) = V c main_arg12 y
  refine congrArg (V c main_arg12) (funext fun a => Fin.ext ?_)
  match a with
  | ⟨0, _⟩ => show win1_6.index t (0 : Fin 3) * 2 + 1 * (y 0).val = (y 0).val; omega
  | ⟨1, _⟩ => show win1_6.index t (1 : Fin 3) * 32 + 1 * (y 1).val = (y 1).val; omega
  | ⟨2, _⟩ => show win1_6.index t (2 : Fin 3) * 32 + 1 * (y 2).val = (y 2).val; omega

theorem blk_bxh (c : Dev nD) (t : Fin cfg1.N) : iblk1 V c 7 t = V c main_arg13 := by
  have e0 := (idx_w7 t)
  funext y
  show V c main_arg13 (((cfg1.win 7).blk t).view.emb y) = V c main_arg13 y
  refine congrArg (V c main_arg13) (funext fun a => Fin.ext ?_)
  match a with
  | ⟨0, _⟩ => show win1_7.index t (0 : Fin 1) * 32 + 1 * (y 0).val = (y 0).val; omega

theorem blk_Whh (c : Dev nD) (t : Fin cfg1.N) : iblk1 V c 8 t = V c main_arg14 := by
  have e := (idx_w8 t)
  obtain ⟨e0, e1, e2⟩ := e
  funext y
  show V c main_arg14 (((cfg1.win 8).blk t).view.emb y) = V c main_arg14 y
  refine congrArg (V c main_arg14) (funext fun a => Fin.ext ?_)
  match a with
  | ⟨0, _⟩ => show win1_8.index t (0 : Fin 3) * 2 + 1 * (y 0).val = (y 0).val; omega
  | ⟨1, _⟩ => show win1_8.index t (1 : Fin 3) * 32 + 1 * (y 1).val = (y 1).val; omega
  | ⟨2, _⟩ => show win1_8.index t (2 : Fin 3) * 32 + 1 * (y 2).val = (y 2).val; omega

theorem blk_bhh (c : Dev nD) (t : Fin cfg1.N) : iblk1 V c 9 t = V c main_arg15 := by
  have e0 := (idx_w9 t)
  funext y
  show V c main_arg15 (((cfg1.win 9).blk t).view.emb y) = V c main_arg15 y
  refine congrArg (V c main_arg15) (funext fun a => Fin.ext ?_)
  match a with
  | ⟨0, _⟩ => show win1_9.index t (0 : Fin 1) * 32 + 1 * (y 0).val = (y 0).val; omega

theorem blk_lw (c : Dev nD) (t : Fin cfg1.N) : iblk1 V c 10 t = V c main_arg16 := by
  obtain ⟨e0, e1⟩ := idx_w10 t
  funext y
  show V c main_arg16 (((cfg1.win 10).blk t).view.emb y) = V c main_arg16 y
  refine congrArg (V c main_arg16) (funext fun a => Fin.ext ?_)
  match a with
  | ⟨0, _⟩ => show win1_10.index t (0 : Fin 2) * 32 + 1 * (y 0).val = (y 0).val; omega
  | ⟨1, _⟩ => show win1_10.index t (1 : Fin 2) * 4 + 1 * (y 1).val = (y 1).val; omega

theorem blk_lb (c : Dev nD) (t : Fin cfg1.N) : iblk1 V c 11 t = V c main_arg17 := by
  have e0 := idx_w11 t
  funext y
  show V c main_arg17 (((cfg1.win 11).blk t).view.emb y) = V c main_arg17 y
  refine congrArg (V c main_arg17) (funext fun a => Fin.ext ?_)
  match a with
  | ⟨0, _⟩ => show win1_11.index t (0 : Fin 1) * 4 + 1 * (y 0).val = (y 0).val; omega

/-! ## The new state -/

/-- The candidate state of the whole arrays as the region finds them. -/
abbrev candidateOf (c : Dev nD) : GraphGru.Nodes 100000 32 :=
  GraphGru.candidate (n := 100000) (V c main_arg0) (V c main_v44) (V c main_v59_2) (V c main_v73) (V c main_arg12) (V c main_arg13) (V c main_arg14) (V c main_arg15)

/-- The new state of the whole arrays. -/
abbrev stateOf (c : Dev nD) : GraphGru.Nodes 100000 32 := GraphGru.blend (V c main_v59_0) (V c main_arg3) (candidateOf V c)

/-- The head's output of the whole arrays. -/
abbrev outOf (c : Dev nD) : GraphGru.Nodes 100000 4 := GraphGru.head (stateOf V c) (V c main_arg16) (V c main_arg17)

/-- Row `p` of point `t`'s block of the new state is row `rowOf t p` of the new state of the whole arrays. -/
theorem state_row (c : Dev nD) (t : Fin cfg1.N) (p : Fin 10000) (k : Fin 32) :
    GraphGru.blend (iblk1 V c 4 t) (iblk1 V c 5 t)
      (GraphGru.candidate (iblk1 V c 0 t) (iblk1 V c 1 t) (iblk1 V c 2 t) (iblk1 V c 3 t) (V c main_arg12) (V c main_arg13) (V c main_arg14) (V c main_arg15)) (ix2 p k)
      = stateOf V c (ix2 (rowOf t p) k) :=
  GraphGru.blend_congr _ _ _ _ _ _ _ _ (row_z V c t p k) (row_h V c t p k)
    (GraphGru.candidate_congr_row _ _ _ _ _ _ _ _ _ _ _ _ p (rowOf t p) (row_x V c t p) (row_ax V c t p) (row_hr V c t p) (row_ahr V c t p) k)

theorem flushed_state (c : Dev nD) (t : Fin cfg1.N) :
    (dat1 V c).flushed 12 t = ((cfg1.win 12).blk t).view.read (Elt Ideal) (stateOf V c) := by
  show (cfg1.win 12).cut (grid1.coords t) ((dat1 V c).after 12 t) = _
  rw [after1_12]
  unfold out1_12
  rw [View.canon_unit_zero hz2]
  simp only [View.ld_unit_zero (S := S10000x32) hz2]
  rw [pay_state, blk_Wxh, blk_bxh, blk_Whh, blk_bhh]
  obtain ⟨-, e1, -⟩ := idx_facts t
  funext j
  obtain ⟨p, q, rfl⟩ : ∃ (p : Fin 10000) (q : Fin 32), j = ix2 p q := ⟨j 0, j 1, eq_ix2 j⟩
  have hemb : ((cfg1.win 12).blk t).view.emb (ix2 p q) = ix2 (rowOf t p) q := funext fun a => Fin.ext (by
    match a with
    | ⟨0, _⟩ => show win1_12.index t (0 : Fin 2) * 10000 + 1 * p.val = win1_12.index t (0 : Fin 2) * 10000 + p.val; omega
    | ⟨1, _⟩ => show win1_12.index t (1 : Fin 2) * 32 + 1 * q.val = q.val; omega)
  show GraphGru.blend (iblk1 V c 4 t) (iblk1 V c 5 t)
      (GraphGru.candidate (iblk1 V c 0 t) (iblk1 V c 1 t) (iblk1 V c 2 t) (iblk1 V c 3 t) (V c main_arg12) (V c main_arg13) (V c main_arg14) (V c main_arg15)) (ix2 p q)
      = stateOf V c (((cfg1.win 12).blk t).view.emb (ix2 p q))
  rw [hemb]
  exact state_row V c t p q

/-- An index of the array is in point `t`'s block iff each coordinate is in the block's range on its axis. -/
theorem mem_blk_state (t : Fin cfg1.N) (i : S100000x32.Idx) :
    i ∈ ((cfg1.win 12).blk t).view.set ↔ ∀ a : Fin 2, win1_12.index t a * S10000x32.size a ≤ (i a).val ∧ (i a).val < win1_12.index t a * S10000x32.size a + S10000x32.size a := by
  show i ∈ ((View.whole main_v74_0).slice (win1_12.rect t)).set ↔ _
  rw [View.set_slice_whole, Rect.mem_set_unit]
  exact Iff.rfl

/-- The ten blocks tile the array: node `r` lies in block `r / 10000`. -/
theorem cover_state (i : S100000x32.Idx) :
    ∃ t : Fin cfg1.N, (cfg1.win 12).flush t = true ∧ i ∈ ((cfg1.win 12).blk t).view.set := by
  have hi0 : (i 0).val < 100000 := (i 0).isLt
  have hi1 : (i 1).val < 32 := (i 1).isLt
  obtain ⟨t, ht⟩ := idx_onto ⟨(i 0).val / 10000, by omega⟩
  have q0 : win1_12.index t (0 : Fin 2) = (i 0).val / 10000 := ht
  have hw0 : win1_12.index t (0 : Fin 2) = win1_12.index t (0 : Fin 2) := rfl
  have hw1 : win1_12.index t (1 : Fin 2) = 0 := (idx_facts t).2.1
  refine ⟨t, flush1_12 t, ?_⟩
  rw [mem_blk_state]
  intro a
  match a with
  | ⟨0, _⟩ => show win1_12.index t (0 : Fin 2) * 10000 ≤ (i 0).val ∧ (i 0).val < win1_12.index t (0 : Fin 2) * 10000 + 10000; omega
  | ⟨1, _⟩ => show win1_12.index t (1 : Fin 2) * 32 ≤ (i 1).val ∧ (i 1).val < win1_12.index t (1 : Fin 2) * 32 + 32; omega

/-- The array after the region: the specification's function of the arrays the region was entered with. -/
theorem arr_state (c : Dev nD) : (dat1 V c).arrAt 12 cfg1.N = stateOf V c :=
  (dat1 V c).arrAt_eq_of_cover 12 (stateOf V c) (fun t _ => flushed_state V c t) cover_state

/-! ## The head's output -/

theorem flushed_out (c : Dev nD) (t : Fin cfg1.N) :
    (dat1 V c).flushed 13 t = ((cfg1.win 13).blk t).view.read (Elt Ideal) (outOf V c) := by
  show (cfg1.win 13).cut (grid1.coords t) ((dat1 V c).after 13 t) = _
  rw [after1_13]
  unfold out1_13
  rw [View.canon_unit_zero hz2]
  simp only [View.ld_unit_zero (S := S10000x32) hz2]
  rw [pay_out, blk_Wxh, blk_bxh, blk_Whh, blk_bhh, blk_lw, blk_lb]
  obtain ⟨e0, e1⟩ := idx13 t
  funext j
  obtain ⟨p, q, rfl⟩ : ∃ (p : Fin 10000) (q : Fin 4), j = ix2 p q := ⟨j 0, j 1, eq_ix2 j⟩
  have hemb : ((cfg1.win 13).blk t).view.emb (ix2 p q) = ix2 (rowOf t p) q := funext fun a => Fin.ext (by
    match a with
    | ⟨0, _⟩ => show win1_13.index t (0 : Fin 2) * 10000 + 1 * p.val = win1_12.index t (0 : Fin 2) * 10000 + p.val; omega
    | ⟨1, _⟩ => show win1_13.index t (1 : Fin 2) * 4 + 1 * q.val = q.val; omega)
  show GraphGru.head (GraphGru.blend (iblk1 V c 4 t) (iblk1 V c 5 t)
      (GraphGru.candidate (iblk1 V c 0 t) (iblk1 V c 1 t) (iblk1 V c 2 t) (iblk1 V c 3 t) (V c main_arg12) (V c main_arg13) (V c main_arg14) (V c main_arg15)))
        (V c main_arg16) (V c main_arg17) (ix2 p q)
      = outOf V c (((cfg1.win 13).blk t).view.emb (ix2 p q))
  rw [hemb]
  exact GraphGru.head_congr_row _ _ _ _ p (rowOf t p) (state_row V c t p) q

/-- An index of the array is in point `t`'s block iff each coordinate is in the block's range on its axis. -/
theorem mem_blk_out (t : Fin cfg1.N) (i : S100000x4.Idx) :
    i ∈ ((cfg1.win 13).blk t).view.set ↔ ∀ a : Fin 2, win1_13.index t a * S10000x4.size a ≤ (i a).val ∧ (i a).val < win1_13.index t a * S10000x4.size a + S10000x4.size a := by
  show i ∈ ((View.whole main_v74_1).slice (win1_13.rect t)).set ↔ _
  rw [View.set_slice_whole, Rect.mem_set_unit]
  exact Iff.rfl

/-- The ten blocks tile the array: node `r` lies in block `r / 10000`. -/
theorem cover_out (i : S100000x4.Idx) :
    ∃ t : Fin cfg1.N, (cfg1.win 13).flush t = true ∧ i ∈ ((cfg1.win 13).blk t).view.set := by
  have hi0 : (i 0).val < 100000 := (i 0).isLt
  have hi1 : (i 1).val < 4 := (i 1).isLt
  obtain ⟨t, ht⟩ := idx_onto ⟨(i 0).val / 10000, by omega⟩
  have q0 : win1_12.index t (0 : Fin 2) = (i 0).val / 10000 := ht
  have hw0 : win1_13.index t (0 : Fin 2) = win1_12.index t (0 : Fin 2) := (idx13 t).1
  have hw1 : win1_13.index t (1 : Fin 2) = 0 := (idx13 t).2
  refine ⟨t, flush1_13 t, ?_⟩
  rw [mem_blk_out]
  intro a
  match a with
  | ⟨0, _⟩ => show win1_13.index t (0 : Fin 2) * 10000 ≤ (i 0).val ∧ (i 0).val < win1_13.index t (0 : Fin 2) * 10000 + 10000; omega
  | ⟨1, _⟩ => show win1_13.index t (1 : Fin 2) * 4 ≤ (i 1).val ∧ (i 1).val < win1_13.index t (1 : Fin 2) * 4 + 4; omega

/-- The array after the region: the specification's function of the arrays the region was entered with. -/
theorem arr_out (c : Dev nD) : (dat1 V c).arrAt 13 cfg1.N = outOf V c :=
  (dat1 V c).arrAt_eq_of_cover 13 (outOf V c) (fun t _ => flushed_out V c t) cover_out

end Cert.KernelIdeal.FinalState

end
-- ==== Proof.HostChain.lean ====
/-
  The host operations around the two kernel regions, compared with the reference's.

  Before the first region the kernel's program computes, exactly as the reference does and from the same arguments: the
  source and destination node of every edge, the edge weights with self-loops zeroed, each node's degree, the inverse square
  root of the degree (zero where the degree is not positive), the symmetrically normalised weight of every edge, and the
  aggregation of a node array — minus the scatter-add, at each edge's destination, of the normalised weight times the
  source's row. Between the regions it aggregates once more, the state scaled by the reset gate. The reference spells the
  aggregation out six times; the kernel's program three times; all are the same operations on the same values, whatever the
  floats are taken to be.
-/
import proofs.«404224_j77799037599894_1_alg».proof.Proof.Gen.KernelIdeal.Frame
import proofs.«404224_j77799037599894_1_alg».proof.Proof.Gen.ReferenceIdeal.Read

set_option maxRecDepth 16384

noncomputable section

namespace Cert.KernelIdeal.HostChain

open Cert.KernelIdeal Cert.KernelIdeal.Gen Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-! ## Before the first region -/

theorem src_eq : W5 m ρ c (Proc.devRef .tc main_v1) = Cert.ReferenceIdeal.Read.val_main_v1 (F := F) (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v1) = _
  simp only [hostOps0, hostOps0_1, hostOps0_2, hostOps0_3, hostOps0_4]
  after_results_simp
  rfl

theorem dst_eq : W5 m ρ c (Proc.devRef .tc main_v3) = Cert.ReferenceIdeal.Read.val_main_v3 (F := F) (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v3) = _
  simp only [hostOps0, hostOps0_1, hostOps0_2, hostOps0_3, hostOps0_4]
  after_results_simp
  rfl

set_option maxHeartbeats 4000000 in
theorem weight_eq : W5 m ρ c (Proc.devRef .tc main_v30) = Cert.ReferenceIdeal.Read.val_main_v30 (F := F) (m ((c : Thread nD τ).loc main_arg1)) (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v30) = _
  simp only [hostOps0, hostOps0_1, hostOps0_2, hostOps0_3, hostOps0_4]
  after_results_simp
  rfl

set_option maxHeartbeats 4000000 in
theorem aggx_eq : W5 m ρ c (Proc.devRef .tc main_v44) = Cert.ReferenceIdeal.Read.val_main_v44 (F := F) (m ((c : Thread nD τ).loc main_arg0)) (m ((c : Thread nD τ).loc main_arg1)) (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v44) = _
  simp only [hostOps0, hostOps0_1, hostOps0_2, hostOps0_3, hostOps0_4]
  after_results_simp
  rfl

set_option maxHeartbeats 4000000 in
theorem aggh_eq : W5 m ρ c (Proc.devRef .tc main_v58) = Cert.ReferenceIdeal.Read.val_main_v68 (F := F) (m ((c : Thread nD τ).loc main_arg1)) (m ((c : Thread nD τ).loc main_arg2)) (m ((c : Thread nD τ).loc main_arg3)) := by
  show StableHlo.after hostOps0_4 (StableHlo.after hostOps0_3 (StableHlo.after hostOps0_2 (StableHlo.after hostOps0_1 (StableHlo.after hostOps0 (W0 m ρ c))))) (Proc.devRef .tc main_v58) = _
  simp only [hostOps0, hostOps0_1, hostOps0_2, hostOps0_3, hostOps0_4]
  after_results_simp
  rfl

theorem arg0_eq : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  simp only [hostOps0, hostOps0_1, hostOps0_2, hostOps0_3, hostOps0_4]
  after_results_simp

theorem arg3_eq : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  simp only [hostOps0, hostOps0_1, hostOps0_2, hostOps0_3, hostOps0_4]
  after_results_simp

theorem arg4_eq : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  simp only [hostOps0, hostOps0_1, hostOps0_2, hostOps0_3, hostOps0_4]
  after_results_simp

theorem arg5_eq : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  simp only [hostOps0, hostOps0_1, hostOps0_2, hostOps0_3, hostOps0_4]
  after_results_simp

theorem arg6_eq : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  simp only [hostOps0, hostOps0_1, hostOps0_2, hostOps0_3, hostOps0_4]
  after_results_simp

theorem arg7_eq : W5 m ρ c (Proc.devRef .tc main_arg7) = m ((c : Thread nD τ).loc main_arg7) := by
  show StableHlo.after hostOps0_4 (StableHlo.after hostOps0_3 (StableHlo.after hostOps0_2 (StableHlo.after hostOps0_1 (StableHlo.after hostOps0 (W0 m ρ c))))) (Proc.devRef .tc main_arg7) = _
  simp only [hostOps0, hostOps0_1, hostOps0_2, hostOps0_3, hostOps0_4]
  after_results_simp

theorem arg8_eq : W5 m ρ c (Proc.devRef .tc main_arg8) = m ((c : Thread nD τ).loc main_arg8) := by
  show StableHlo.after hostOps0_4 (StableHlo.after hostOps0_3 (StableHlo.after hostOps0_2 (StableHlo.after hostOps0_1 (StableHlo.after hostOps0 (W0 m ρ c))))) (Proc.devRef .tc main_arg8) = _
  simp only [hostOps0, hostOps0_1, hostOps0_2, hostOps0_3, hostOps0_4]
  after_results_simp

theorem arg9_eq : W5 m ρ c (Proc.devRef .tc main_arg9) = m ((c : Thread nD τ).loc main_arg9) := by
  show StableHlo.after hostOps0_4 (StableHlo.after hostOps0_3 (StableHlo.after hostOps0_2 (StableHlo.after hostOps0_1 (StableHlo.after hostOps0 (W0 m ρ c))))) (Proc.devRef .tc main_arg9) = _
  simp only [hostOps0, hostOps0_1, hostOps0_2, hostOps0_3, hostOps0_4]
  after_results_simp

theorem arg10_eq : W5 m ρ c (Proc.devRef .tc main_arg10) = m ((c : Thread nD τ).loc main_arg10) := by
  show StableHlo.after hostOps0_4 (StableHlo.after hostOps0_3 (StableHlo.after hostOps0_2 (StableHlo.after hostOps0_1 (StableHlo.after hostOps0 (W0 m ρ c))))) (Proc.devRef .tc main_arg10) = _
  simp only [hostOps0, hostOps0_1, hostOps0_2, hostOps0_3, hostOps0_4]
  after_results_simp

theorem arg11_eq : W5 m ρ c (Proc.devRef .tc main_arg11) = m ((c : Thread nD τ).loc main_arg11) := by
  show StableHlo.after hostOps0_4 (StableHlo.after hostOps0_3 (StableHlo.after hostOps0_2 (StableHlo.after hostOps0_1 (StableHlo.after hostOps0 (W0 m ρ c))))) (Proc.devRef .tc main_arg11) = _
  simp only [hostOps0, hostOps0_1, hostOps0_2, hostOps0_3, hostOps0_4]
  after_results_simp

theorem arg12_eq : W5 m ρ c (Proc.devRef .tc main_arg12) = m ((c : Thread nD τ).loc main_arg12) := by
  show StableHlo.after hostOps0_4 (StableHlo.after hostOps0_3 (StableHlo.after hostOps0_2 (StableHlo.after hostOps0_1 (StableHlo.after hostOps0 (W0 m ρ c))))) (Proc.devRef .tc main_arg12) = _
  simp only [hostOps0, hostOps0_1, hostOps0_2, hostOps0_3, hostOps0_4]
  after_results_simp

theorem arg13_eq : W5 m ρ c (Proc.devRef .tc main_arg13) = m ((c : Thread nD τ).loc main_arg13) := by
  show StableHlo.after hostOps0_4 (StableHlo.after hostOps0_3 (StableHlo.after hostOps0_2 (StableHlo.after hostOps0_1 (StableHlo.after hostOps0 (W0 m ρ c))))) (Proc.devRef .tc main_arg13) = _
  simp only [hostOps0, hostOps0_1, hostOps0_2, hostOps0_3, hostOps0_4]
  after_results_simp

theorem arg14_eq : W5 m ρ c (Proc.devRef .tc main_arg14) = m ((c : Thread nD τ).loc main_arg14) := by
  show StableHlo.after hostOps0_4 (StableHlo.after hostOps0_3 (StableHlo.after hostOps0_2 (StableHlo.after hostOps0_1 (StableHlo.after hostOps0 (W0 m ρ c))))) (Proc.devRef .tc main_arg14) = _
  simp only [hostOps0, hostOps0_1, hostOps0_2, hostOps0_3, hostOps0_4]
  after_results_simp

theorem arg15_eq : W5 m ρ c (Proc.devRef .tc main_arg15) = m ((c : Thread nD τ).loc main_arg15) := by
  show StableHlo.after hostOps0_4 (StableHlo.after hostOps0_3 (StableHlo.after hostOps0_2 (StableHlo.after hostOps0_1 (StableHlo.after hostOps0 (W0 m ρ c))))) (Proc.devRef .tc main_arg15) = _
  simp only [hostOps0, hostOps0_1, hostOps0_2, hostOps0_3, hostOps0_4]
  after_results_simp

theorem arg16_eq : W5 m ρ c (Proc.devRef .tc main_arg16) = m ((c : Thread nD τ).loc main_arg16) := by
  show StableHlo.after hostOps0_4 (StableHlo.after hostOps0_3 (StableHlo.after hostOps0_2 (StableHlo.after hostOps0_1 (StableHlo.after hostOps0 (W0 m ρ c))))) (Proc.devRef .tc main_arg16) = _
  simp only [hostOps0, hostOps0_1, hostOps0_2, hostOps0_3, hostOps0_4]
  after_results_simp

theorem arg17_eq : W5 m ρ c (Proc.devRef .tc main_arg17) = m ((c : Thread nD τ).loc main_arg17) := by
  show StableHlo.after hostOps0_4 (StableHlo.after hostOps0_3 (StableHlo.after hostOps0_2 (StableHlo.after hostOps0_1 (StableHlo.after hostOps0 (W0 m ρ c))))) (Proc.devRef .tc main_arg17) = _
  simp only [hostOps0, hostOps0_1, hostOps0_2, hostOps0_3, hostOps0_4]
  after_results_simp

/-! ## The aggregation as one function, and the reference's copies of it -/

/-- Minus the scatter-add, at each edge's destination node, of the edge's normalised weight times its source node's row
    of `feat`: the reference's last aggregation with the aggregated array left open. -/
def aggregate (feat : (⟨Cert.ReferenceIdeal.S100000x32, .f32⟩ : BufTy).Contents (Elt F)) (x1 : (⟨Cert.ReferenceIdeal.S2x1600000, .i32⟩ : BufTy).Contents (Elt F)) (x2 : (⟨Cert.ReferenceIdeal.S1600000, .f32⟩ : BufTy).Contents (Elt F)) : (⟨Cert.ReferenceIdeal.S100000x32, .f32⟩ : BufTy).Contents (Elt F) :=
  Host.negf (Host.scatterAdd Cert.ReferenceIdeal.scatter_S100000x32_S1600000x1_S1600000x32_1_0_0_1 (Cert.ReferenceIdeal.Read.val_main_v176 (F := F)) (Cert.ReferenceIdeal.Read.val_main_v177 (F := F) x1)
    (mulf (Cert.ReferenceIdeal.Read.val_main_v174 (F := F) x1 x2)
      (Host.gather Cert.ReferenceIdeal.gather_S100000x32_S1600000x1_S1600000x32_1_0_n_n_0_1_132 feat (Cert.ReferenceIdeal.Read.val_main_v172 (F := F) x1))))

/-- The reference's aggregation of the scaled state is that function of its scaled state. -/
theorem ref_last_agg (x0 : (⟨Cert.ReferenceIdeal.S100000x32, .f32⟩ : BufTy).Contents (Elt F)) (x1 : (⟨Cert.ReferenceIdeal.S2x1600000, .i32⟩ : BufTy).Contents (Elt F)) (x2 : (⟨Cert.ReferenceIdeal.S1600000, .f32⟩ : BufTy).Contents (Elt F)) (x3 : (⟨Cert.ReferenceIdeal.S100000x32, .f32⟩ : BufTy).Contents (Elt F))
    (x8 : (⟨Cert.ReferenceIdeal.S2x32x32, .f32⟩ : BufTy).Contents (Elt F)) (x9 : (⟨Cert.ReferenceIdeal.S32, .f32⟩ : BufTy).Contents (Elt F)) (x10 : (⟨Cert.ReferenceIdeal.S2x32x32, .f32⟩ : BufTy).Contents (Elt F)) (x11 : (⟨Cert.ReferenceIdeal.S32, .f32⟩ : BufTy).Contents (Elt F)) :
    Cert.ReferenceIdeal.Read.val_main_v179 (F := F) x0 x1 x2 x3 x8 x9 x10 x11 = aggregate (Cert.ReferenceIdeal.Read.val_main_v165 (F := F) x0 x1 x2 x3 x8 x9 x10 x11) x1 x2 := rfl

/-- The reference aggregates the input features three times and the state twice: each time the same operations. -/
theorem ref_aggx_second (x0 : (⟨Cert.ReferenceIdeal.S100000x32, .f32⟩ : BufTy).Contents (Elt F)) (x1 : (⟨Cert.ReferenceIdeal.S2x1600000, .i32⟩ : BufTy).Contents (Elt F)) (x2 : (⟨Cert.ReferenceIdeal.S1600000, .f32⟩ : BufTy).Contents (Elt F)) :
    Cert.ReferenceIdeal.Read.val_main_v99 (F := F) x0 x1 x2 = Cert.ReferenceIdeal.Read.val_main_v44 (F := F) x0 x1 x2 := rfl
theorem ref_aggx_third (x0 : (⟨Cert.ReferenceIdeal.S100000x32, .f32⟩ : BufTy).Contents (Elt F)) (x1 : (⟨Cert.ReferenceIdeal.S2x1600000, .i32⟩ : BufTy).Contents (Elt F)) (x2 : (⟨Cert.ReferenceIdeal.S1600000, .f32⟩ : BufTy).Contents (Elt F)) :
    Cert.ReferenceIdeal.Read.val_main_v154 (F := F) x0 x1 x2 = Cert.ReferenceIdeal.Read.val_main_v44 (F := F) x0 x1 x2 := rfl
theorem ref_aggh_second (x1 : (⟨Cert.ReferenceIdeal.S2x1600000, .i32⟩ : BufTy).Contents (Elt F)) (x2 : (⟨Cert.ReferenceIdeal.S1600000, .f32⟩ : BufTy).Contents (Elt F)) (x3 : (⟨Cert.ReferenceIdeal.S100000x32, .f32⟩ : BufTy).Contents (Elt F)) :
    Cert.ReferenceIdeal.Read.val_main_v123 (F := F) x1 x2 x3 = Cert.ReferenceIdeal.Read.val_main_v68 (F := F) x1 x2 x3 := rfl

/-! ## Between the regions -/

theorem W7_v59_0 : W7 m ρ c (Proc.devRef .tc main_v59_0) = W6 m ρ c (Proc.devRef .tc main_v59_0) := by
  show StableHlo.after hostOps1 (W6 m ρ c) (Proc.devRef .tc main_v59_0) = _
  simp only [hostOps1]
  after_results_simp

theorem W7_v59_2 : W7 m ρ c (Proc.devRef .tc main_v59_2) = W6 m ρ c (Proc.devRef .tc main_v59_2) := by
  show StableHlo.after hostOps1 (W6 m ρ c) (Proc.devRef .tc main_v59_2) = _
  simp only [hostOps1]
  after_results_simp

theorem W7_v44 : W7 m ρ c (Proc.devRef .tc main_v44) = W6 m ρ c (Proc.devRef .tc main_v44) := by
  show StableHlo.after hostOps1 (W6 m ρ c) (Proc.devRef .tc main_v44) = _
  simp only [hostOps1]
  after_results_simp

theorem W7_arg0 : W7 m ρ c (Proc.devRef .tc main_arg0) = W6 m ρ c (Proc.devRef .tc main_arg0) := by
  show StableHlo.after hostOps1 (W6 m ρ c) (Proc.devRef .tc main_arg0) = _
  simp only [hostOps1]
  after_results_simp

theorem W7_arg3 : W7 m ρ c (Proc.devRef .tc main_arg3) = W6 m ρ c (Proc.devRef .tc main_arg3) := by
  show StableHlo.after hostOps1 (W6 m ρ c) (Proc.devRef .tc main_arg3) = _
  simp only [hostOps1]
  after_results_simp

theorem W7_arg12 : W7 m ρ c (Proc.devRef .tc main_arg12) = W6 m ρ c (Proc.devRef .tc main_arg12) := by
  show StableHlo.after hostOps1 (W6 m ρ c) (Proc.devRef .tc main_arg12) = _
  simp only [hostOps1]
  after_results_simp

theorem W7_arg13 : W7 m ρ c (Proc.devRef .tc main_arg13) = W6 m ρ c (Proc.devRef .tc main_arg13) := by
  show StableHlo.after hostOps1 (W6 m ρ c) (Proc.devRef .tc main_arg13) = _
  simp only [hostOps1]
  after_results_simp

theorem W7_arg14 : W7 m ρ c (Proc.devRef .tc main_arg14) = W6 m ρ c (Proc.devRef .tc main_arg14) := by
  show StableHlo.after hostOps1 (W6 m ρ c) (Proc.devRef .tc main_arg14) = _
  simp only [hostOps1]
  after_results_simp

theorem W7_arg15 : W7 m ρ c (Proc.devRef .tc main_arg15) = W6 m ρ c (Proc.devRef .tc main_arg15) := by
  show StableHlo.after hostOps1 (W6 m ρ c) (Proc.devRef .tc main_arg15) = _
  simp only [hostOps1]
  after_results_simp

theorem W7_arg16 : W7 m ρ c (Proc.devRef .tc main_arg16) = W6 m ρ c (Proc.devRef .tc main_arg16) := by
  show StableHlo.after hostOps1 (W6 m ρ c) (Proc.devRef .tc main_arg16) = _
  simp only [hostOps1]
  after_results_simp

theorem W7_arg17 : W7 m ρ c (Proc.devRef .tc main_arg17) = W6 m ρ c (Proc.devRef .tc main_arg17) := by
  show StableHlo.after hostOps1 (W6 m ρ c) (Proc.devRef .tc main_arg17) = _
  simp only [hostOps1]
  after_results_simp

/-- The first region leaves its input arrays as it found them; the second region's weights are none of its arrays. -/
theorem W6_arg0 : W6 m ρ c (Proc.devRef .tc main_arg0) = W5 m ρ c (Proc.devRef .tc main_arg0) :=
  (W6_arr m ρ c 0).trans (((dat0 (V5 m ρ) c).arrAt_in 0 rfl _).trans (A_eq0 (V5 m ρ) c 0))
theorem W6_arg3 : W6 m ρ c (Proc.devRef .tc main_arg3) = W5 m ρ c (Proc.devRef .tc main_arg3) :=
  (W6_arr m ρ c 1).trans (((dat0 (V5 m ρ) c).arrAt_in 1 rfl _).trans (A_eq0 (V5 m ρ) c 1))
theorem W6_v44 : W6 m ρ c (Proc.devRef .tc main_v44) = W5 m ρ c (Proc.devRef .tc main_v44) :=
  (W6_arr m ρ c 2).trans (((dat0 (V5 m ρ) c).arrAt_in 2 rfl _).trans (A_eq0 (V5 m ρ) c 2))
theorem W6_arg12 : W6 m ρ c (Proc.devRef .tc main_arg12) = W5 m ρ c (Proc.devRef .tc main_arg12) := W6_of_ne m ρ c main_arg12 (by decide)
theorem W6_arg13 : W6 m ρ c (Proc.devRef .tc main_arg13) = W5 m ρ c (Proc.devRef .tc main_arg13) := W6_of_ne m ρ c main_arg13 (by decide)
theorem W6_arg14 : W6 m ρ c (Proc.devRef .tc main_arg14) = W5 m ρ c (Proc.devRef .tc main_arg14) := W6_of_ne m ρ c main_arg14 (by decide)
theorem W6_arg15 : W6 m ρ c (Proc.devRef .tc main_arg15) = W5 m ρ c (Proc.devRef .tc main_arg15) := W6_of_ne m ρ c main_arg15 (by decide)
theorem W6_arg16 : W6 m ρ c (Proc.devRef .tc main_arg16) = W5 m ρ c (Proc.devRef .tc main_arg16) := W6_of_ne m ρ c main_arg16 (by decide)
theorem W6_arg17 : W6 m ρ c (Proc.devRef .tc main_arg17) = W5 m ρ c (Proc.devRef .tc main_arg17) := W6_of_ne m ρ c main_arg17 (by decide)

/-- The second region is entered with the arguments as launched. -/
theorem entry_arg0 : W7 m ρ c (Proc.devRef .tc main_arg0) = m ((c : Thread nD τ).loc main_arg0) := (W7_arg0 m ρ c).trans ((W6_arg0 m ρ c).trans (arg0_eq m ρ c))
theorem entry_arg3 : W7 m ρ c (Proc.devRef .tc main_arg3) = m ((c : Thread nD τ).loc main_arg3) := (W7_arg3 m ρ c).trans ((W6_arg3 m ρ c).trans (arg3_eq m ρ c))
theorem entry_arg12 : W7 m ρ c (Proc.devRef .tc main_arg12) = m ((c : Thread nD τ).loc main_arg12) := (W7_arg12 m ρ c).trans ((W6_arg12 m ρ c).trans (arg12_eq m ρ c))
theorem entry_arg13 : W7 m ρ c (Proc.devRef .tc main_arg13) = m ((c : Thread nD τ).loc main_arg13) := (W7_arg13 m ρ c).trans ((W6_arg13 m ρ c).trans (arg13_eq m ρ c))
theorem entry_arg14 : W7 m ρ c (Proc.devRef .tc main_arg14) = m ((c : Thread nD τ).loc main_arg14) := (W7_arg14 m ρ c).trans ((W6_arg14 m ρ c).trans (arg14_eq m ρ c))
theorem entry_arg15 : W7 m ρ c (Proc.devRef .tc main_arg15) = m ((c : Thread nD τ).loc main_arg15) := (W7_arg15 m ρ c).trans ((W6_arg15 m ρ c).trans (arg15_eq m ρ c))
theorem entry_arg16 : W7 m ρ c (Proc.devRef .tc main_arg16) = m ((c : Thread nD τ).loc main_arg16) := (W7_arg16 m ρ c).trans ((W6_arg16 m ρ c).trans (arg16_eq m ρ c))
theorem entry_arg17 : W7 m ρ c (Proc.devRef .tc main_arg17) = m ((c : Thread nD τ).loc main_arg17) := (W7_arg17 m ρ c).trans ((W6_arg17 m ρ c).trans (arg17_eq m ρ c))

/-- … and with the aggregated input features the first region was entered with. -/
theorem entry_aggx : W7 m ρ c (Proc.devRef .tc main_v44) = Cert.ReferenceIdeal.Read.val_main_v44 (F := F) (m ((c : Thread nD τ).loc main_arg0)) (m ((c : Thread nD τ).loc main_arg1)) (m ((c : Thread nD τ).loc main_arg2)) :=
  (W7_v44 m ρ c).trans ((W6_v44 m ρ c).trans (aggx_eq m ρ c))

set_option maxHeartbeats 4000000 in
/-- Between the regions the program aggregates the array the first region left in its third output. -/
theorem entry_agg_scaled : W7 m ρ c (Proc.devRef .tc main_v73) = aggregate (W6 m ρ c (Proc.devRef .tc main_v59_2)) (m ((c : Thread nD τ).loc main_arg1)) (m ((c : Thread nD τ).loc main_arg2)) := by
  show StableHlo.after hostOps1 (W6 m ρ c) (Proc.devRef .tc main_v73) = _
  simp only [hostOps1]
  after_results_simp
  rw [W6_of_ne m ρ c main_v30 (by decide), W6_of_ne m ρ c main_v1 (by decide), W6_of_ne m ρ c main_v3 (by decide), weight_eq, src_eq, dst_eq]
  rfl

end Cert.KernelIdeal.HostChain

end
-- ==== Proof.RefGates.lean ====
/-
  The reference program's stages, read as the specification's functions.

  The reference computes on whole arrays of 100000 nodes. A matrix product of a node array with a 32 × 32 weight matrix is,
  at node r and feature j, the sum over k of array(r,k)·weight(k,j); a weight matrix is one of the two slabs of a
  2 × 32 × 32 array, sliced out and re-laid; a bias is repeated down the nodes. So each "product + product + bias" stage is
  the specification's convolution. The reference writes the logistic function out as 1 / (1 + e^(-x)), which is the
  logistic function; its rectifier is a maximum with the zero word.
-/
import proofs.«404224_j77799037599894_1_alg».proof.Proof.Gen.ReferenceIdeal.Read
import proofs.«404224_j77799037599894_1_alg».proof.Proof.GraphGru
import Idealize.ShloMosaic.Lib.Pipeline.Value
import Idealize.ShloMosaic.Lib.ValueIdx
import Idealize.ShloMosaic.PureOps.Ideal.Laws

set_option maxRecDepth 16384

noncomputable section

namespace Cert.ReferenceIdeal.Gates

open Cert.ReferenceIdeal Cert.ReferenceIdeal.Gen Cert.ReferenceIdeal.Read Idealize.ShloMosaic Idealize.ShloMosaic.TcCoe Idealize.ShloMosaic.ValueIdx

/-! ## Products, slabs and biases on the whole arrays -/

/-- Row p of a node array against column q of a square weight matrix. -/
theorem dot_rows (u : FVec Ideal S100000x32 .f32) (w : FVec Ideal S32x32 .f32) (p : Fin 100000) (q : Fin 32) :
    Host.dotGeneral dot_S100000x32_S32x32_S100000x32_1_0_0_1_n_n none u w (ix2 p q) = ∑ k : Fin 32, u (ix2 p k) * w (ix2 k q) := by
  simp only [Host.dotGeneral]
  rw [Ideal.dotGeneral_apply, ← Equiv.sum_comp (contrEquiv1 dot_S100000x32_S32x32_S100000x32_1_0_0_1_n_n 32 rfl rfl).symm]
  refine Finset.sum_congr rfl fun k _ => ?_
  have hk := contrEquiv1_symm_val dot_S100000x32_S32x32_S100000x32_1_0_0_1_n_n 32 rfl rfl k
  have el : dot_S100000x32_S32x32_S100000x32_1_0_0_1_n_n.lhsIdx (ix2 p q) ((contrEquiv1 dot_S100000x32_S32x32_S100000x32_1_0_0_1_n_n 32 rfl rfl).symm k) = ix2 p k := funext fun a => Fin.ext (by
    match a with
    | ⟨0, _⟩ => exact lhs_main_v47_0 _ _
    | ⟨1, _⟩ => exact (lhs_main_v47_1 _ _).trans hk)
  have er : dot_S100000x32_S32x32_S100000x32_1_0_0_1_n_n.rhsIdx (ix2 p q) ((contrEquiv1 dot_S100000x32_S32x32_S100000x32_1_0_0_1_n_n 32 rfl rfl).symm k) = ix2 k q := funext fun a => Fin.ext (by
    match a with
    | ⟨0, _⟩ => exact (rhs_main_v47_0 _ _).trans hk
    | ⟨1, _⟩ => exact rhs_main_v47_1 _ _)
  rw [el, er]

/-- Row p of a node array against column q of the head's 32 × 4 matrix. -/
theorem dot_head (u : FVec Ideal S100000x32 .f32) (w : FVec Ideal S32x4 .f32) (p : Fin 100000) (q : Fin 4) :
    Host.dotGeneral dot_S100000x32_S32x4_S100000x4_1_0_0_1_n_n none u w (ix2 p q) = ∑ k : Fin 32, u (ix2 p k) * w (ix2 k q) := by
  simp only [Host.dotGeneral]
  rw [Ideal.dotGeneral_apply, ← Equiv.sum_comp (contrEquiv1 dot_S100000x32_S32x4_S100000x4_1_0_0_1_n_n 32 rfl rfl).symm]
  refine Finset.sum_congr rfl fun k _ => ?_
  have hk := contrEquiv1_symm_val dot_S100000x32_S32x4_S100000x4_1_0_0_1_n_n 32 rfl rfl k
  have el : dot_S100000x32_S32x4_S100000x4_1_0_0_1_n_n.lhsIdx (ix2 p q) ((contrEquiv1 dot_S100000x32_S32x4_S100000x4_1_0_0_1_n_n 32 rfl rfl).symm k) = ix2 p k := funext fun a => Fin.ext (by
    match a with
    | ⟨0, _⟩ => exact lhs_main_v198_0 _ _
    | ⟨1, _⟩ => exact (lhs_main_v198_1 _ _).trans hk)
  have er : dot_S100000x32_S32x4_S100000x4_1_0_0_1_n_n.rhsIdx (ix2 p q) ((contrEquiv1 dot_S100000x32_S32x4_S100000x4_1_0_0_1_n_n 32 rfl rfl).symm k) = ix2 k q := funext fun a => Fin.ext (by
    match a with
    | ⟨0, _⟩ => exact (rhs_main_v198_0 _ _).trans hk
    | ⟨1, _⟩ => exact rhs_main_v198_1 _ _)
  rw [el, er]

/-- The first slab, sliced out and re-laid as a square matrix: entry (k,q) is the array's (0,k,q). -/
theorem slab0 (W : FVec Ideal S2x32x32 .f32) (k q : Fin 32) :
    (shapeCast S32x32 (extractStridedSlice S1x32x32 ![0, 0, 0] W slices_S2x32x32_S1x32x32_0_0_0) shapeCasts_S1x32x32_S32x32 : FVec Ideal S32x32 .f32) (ix2 k q)
      = W (ix3 (0 : Fin 2) k q) := by
  rw [shapeCast_apply (extractStridedSlice S1x32x32 ![0, 0, 0] W slices_S2x32x32_S1x32x32_0_0_0) shapeCasts_S1x32x32_S32x32 (ix2 k q) (ix3 (0 : Fin 1) k q) (by
    rw [Shape.rowMajor_val_three, Shape.rowMajor_val_two]
    show (0 * 32 + k.val) * 32 + q.val = k.val * 32 + q.val
    omega)]
  exact extractStridedSlice_apply ![0, 0, 0] W slices_S2x32x32_S1x32x32_0_0_0 (ix3 (0 : Fin 1) k q) (ix3 (0 : Fin 2) k q) (fun a => match a with
    | ⟨0, _⟩ => by show (0 : Nat) = 0 + 0; omega
    | ⟨1, _⟩ => by show k.val = 0 + k.val; omega
    | ⟨2, _⟩ => by show q.val = 0 + q.val; omega)

/-- The second slab: entry (k,q) is the array's (1,k,q). -/
theorem slab1 (W : FVec Ideal S2x32x32 .f32) (k q : Fin 32) :
    (shapeCast S32x32 (extractStridedSlice S1x32x32 ![1, 0, 0] W slices_S2x32x32_S1x32x32_1_0_0) shapeCasts_S1x32x32_S32x32 : FVec Ideal S32x32 .f32) (ix2 k q)
      = W (ix3 (1 : Fin 2) k q) := by
  rw [shapeCast_apply (extractStridedSlice S1x32x32 ![1, 0, 0] W slices_S2x32x32_S1x32x32_1_0_0) shapeCasts_S1x32x32_S32x32 (ix2 k q) (ix3 (0 : Fin 1) k q) (by
    rw [Shape.rowMajor_val_three, Shape.rowMajor_val_two]
    show (0 * 32 + k.val) * 32 + q.val = k.val * 32 + q.val
    omega)]
  exact extractStridedSlice_apply ![1, 0, 0] W slices_S2x32x32_S1x32x32_1_0_0 (ix3 (0 : Fin 1) k q) (ix3 (1 : Fin 2) k q) (fun a => match a with
    | ⟨0, _⟩ => by show (1 : Nat) = 1 + 0; omega
    | ⟨1, _⟩ => by show k.val = 0 + k.val; omega
    | ⟨2, _⟩ => by show q.val = 0 + q.val; omega)

/-- A bias of 32 features repeated down the nodes: at (p,q) it is the bias at q. -/
theorem bias_rows (b : FVec Ideal S32 .f32) (p : Fin 100000) (q : Fin 32) :
    (broadcastInDim S100000x32 ![0, 1] bcast_S1x32_S100000x32_0_1 (broadcastInDim S1x32 ![1] bcast_S32_S1x32_1 b) : FVec Ideal S100000x32 .f32) (ix2 p q) = b (ix1 q) := by
  rw [broadcastInDim_apply _ bcast_S1x32_S100000x32_0_1 (broadcastInDim S1x32 ![1] bcast_S32_S1x32_1 b) (ix2 p q) (ix2 (0 : Fin 1) q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])]
  exact broadcastInDim_apply _ bcast_S32_S1x32_1 b (ix2 (0 : Fin 1) q) (ix1 q) (fun a => match a with
    | ⟨0, _⟩ => by show q.val = if (32 : Nat) = 1 then 0 else q.val; rw [if_neg (by decide)])

/-- The head's bias of 4 outputs repeated down the nodes. -/
theorem bias_head (b : FVec Ideal S4 .f32) (p : Fin 100000) (q : Fin 4) :
    (broadcastInDim S100000x4 ![0, 1] bcast_S1x4_S100000x4_0_1 (broadcastInDim S1x4 ![1] bcast_S4_S1x4_1 b) : FVec Ideal S100000x4 .f32) (ix2 p q) = b (ix1 q) := by
  rw [broadcastInDim_apply _ bcast_S1x4_S100000x4_0_1 (broadcastInDim S1x4 ![1] bcast_S4_S1x4_1 b) (ix2 p q) (ix2 (0 : Fin 1) q) (fun a => match a with
    | ⟨0, _⟩ => by show (0 : Nat) = if (1 : Nat) = 1 then 0 else p.val; rw [if_pos rfl]
    | ⟨1, _⟩ => by show q.val = if (4 : Nat) = 1 then 0 else q.val; rw [if_neg (by decide)])]
  exact broadcastInDim_apply _ bcast_S4_S1x4_1 b (ix2 (0 : Fin 1) q) (ix1 q) (fun a => match a with
    | ⟨0, _⟩ => by show q.val = if (4 : Nat) = 1 then 0 else q.val; rw [if_neg (by decide)])

/-- A "product + product + bias" stage is the specification's convolution. -/
theorem conv_ref (u a : FVec Ideal S100000x32 .f32) (W : FVec Ideal S2x32x32 .f32) (b : FVec Ideal S32 .f32) (p : Fin 100000) (q : Fin 32) :
    (addf (addf (Host.dotGeneral dot_S100000x32_S32x32_S100000x32_1_0_0_1_n_n none u (shapeCast S32x32 (extractStridedSlice S1x32x32 ![0, 0, 0] W slices_S2x32x32_S1x32x32_0_0_0) shapeCasts_S1x32x32_S32x32 : FVec Ideal S32x32 .f32))
                (Host.dotGeneral dot_S100000x32_S32x32_S100000x32_1_0_0_1_n_n none a (shapeCast S32x32 (extractStridedSlice S1x32x32 ![1, 0, 0] W slices_S2x32x32_S1x32x32_1_0_0) shapeCasts_S1x32x32_S32x32 : FVec Ideal S32x32 .f32)))
          (broadcastInDim S100000x32 ![0, 1] bcast_S1x32_S100000x32_0_1 (broadcastInDim S1x32 ![1] bcast_S32_S1x32_1 b) : FVec Ideal S100000x32 .f32) : FVec Ideal S100000x32 .f32) (ix2 p q)
      = GraphGru.conv u a W b p q := by
  rw [addf_apply, addf_apply, dot_rows, dot_rows, bias_rows]
  unfold GraphGru.conv
  exact congrArg (· + b (ix1 q)) (congrArg₂ (· + ·)
    (Finset.sum_congr rfl fun k _ => congrArg (u (ix2 p k) * ·) (slab0 W k q))
    (Finset.sum_congr rfl fun k _ => congrArg (a (ix2 p k) * ·) (slab1 W k q)))

/-- The logistic function as the reference writes it out, each `1` the float word. -/
theorem logistic_written (o1 o2 a b : EReal) (h1 : o1 = GraphGru.oneW) (h2 : o2 = GraphGru.oneW) :
    Ideal.div o1 (o2 + Ideal.exp (-(a + b))) = Ideal.logistic (a + b) := by
  rw [h1, h2]; exact GraphGru.logistic_expanded _

/-! ## The stages -/

/-- The update gate. -/
theorem update_eq (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x3 : (⟨S100000x32, .f32⟩ : BufTy).Contents (Elt Ideal)) (x4 : (⟨S2x32x32, .f32⟩ : BufTy).Contents (Elt Ideal)) (x5 : (⟨S32, .f32⟩ : BufTy).Contents (Elt Ideal)) (x6 : (⟨S2x32x32, .f32⟩ : BufTy).Contents (Elt Ideal)) (x7 : (⟨S32, .f32⟩ : BufTy).Contents (Elt Ideal)) :
    val_main_v85 (F := Ideal) x0 x1 x2 x3 x4 x5 x6 x7 = GraphGru.gate x0 (val_main_v44 (F := Ideal) x0 x1 x2) x3 (val_main_v68 (F := Ideal) x1 x2 x3) x4 x5 x6 x7 := by
  funext i
  obtain ⟨p, q, rfl⟩ : ∃ (p : Fin 100000) (q : Fin 32), i = ix2 p q := ⟨i 0, i 1, eq_ix2 i⟩
  have c1 : val_main_v54 (F := Ideal) x0 x1 x2 x4 x5 (ix2 p q) = _ := conv_ref x0 (val_main_v44 (F := Ideal) x0 x1 x2) x4 x5 p q
  have c2 : val_main_v78 (F := Ideal) x1 x2 x3 x6 x7 (ix2 p q) = _ := conv_ref x3 (val_main_v68 (F := Ideal) x1 x2 x3) x6 x7 p q
  have h84 : val_main_v84 (F := Ideal) (ix2 p q) = GraphGru.oneW := by rw [val_main_v84_apply]; rfl
  have h82 : val_main_v82 (F := Ideal) (ix2 p q) = GraphGru.oneW := by rw [val_main_v82_apply]; rfl
  show Ideal.div (val_main_v84 (F := Ideal) (ix2 p q)) (val_main_v82 (F := Ideal) (ix2 p q) + Ideal.exp (-(val_main_v54 (F := Ideal) x0 x1 x2 x4 x5 (ix2 p q) + val_main_v78 (F := Ideal) x1 x2 x3 x6 x7 (ix2 p q)))) = _
  rw [c1, c2]
  exact logistic_written _ _ _ _ h84 h82

/-- The reset gate. -/
theorem reset_eq (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x3 : (⟨S100000x32, .f32⟩ : BufTy).Contents (Elt Ideal)) (x8 : (⟨S2x32x32, .f32⟩ : BufTy).Contents (Elt Ideal)) (x9 : (⟨S32, .f32⟩ : BufTy).Contents (Elt Ideal)) (x10 : (⟨S2x32x32, .f32⟩ : BufTy).Contents (Elt Ideal)) (x11 : (⟨S32, .f32⟩ : BufTy).Contents (Elt Ideal)) :
    val_main_v140 (F := Ideal) x0 x1 x2 x3 x8 x9 x10 x11 = GraphGru.gate x0 (val_main_v99 (F := Ideal) x0 x1 x2) x3 (val_main_v123 (F := Ideal) x1 x2 x3) x8 x9 x10 x11 := by
  funext i
  obtain ⟨p, q, rfl⟩ : ∃ (p : Fin 100000) (q : Fin 32), i = ix2 p q := ⟨i 0, i 1, eq_ix2 i⟩
  have c1 : val_main_v109 (F := Ideal) x0 x1 x2 x8 x9 (ix2 p q) = _ := conv_ref x0 (val_main_v99 (F := Ideal) x0 x1 x2) x8 x9 p q
  have c2 : val_main_v133 (F := Ideal) x1 x2 x3 x10 x11 (ix2 p q) = _ := conv_ref x3 (val_main_v123 (F := Ideal) x1 x2 x3) x10 x11 p q
  have h139 : val_main_v139 (F := Ideal) (ix2 p q) = GraphGru.oneW := by rw [val_main_v139_apply]; rfl
  have h137 : val_main_v137 (F := Ideal) (ix2 p q) = GraphGru.oneW := by rw [val_main_v137_apply]; rfl
  show Ideal.div (val_main_v139 (F := Ideal) (ix2 p q)) (val_main_v137 (F := Ideal) (ix2 p q) + Ideal.exp (-(val_main_v109 (F := Ideal) x0 x1 x2 x8 x9 (ix2 p q) + val_main_v133 (F := Ideal) x1 x2 x3 x10 x11 (ix2 p q)))) = _
  rw [c1, c2]
  exact logistic_written _ _ _ _ h139 h137

/-- The state scaled by the reset gate. -/
theorem scaled_eq (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x3 : (⟨S100000x32, .f32⟩ : BufTy).Contents (Elt Ideal)) (x8 : (⟨S2x32x32, .f32⟩ : BufTy).Contents (Elt Ideal)) (x9 : (⟨S32, .f32⟩ : BufTy).Contents (Elt Ideal)) (x10 : (⟨S2x32x32, .f32⟩ : BufTy).Contents (Elt Ideal)) (x11 : (⟨S32, .f32⟩ : BufTy).Contents (Elt Ideal)) :
    val_main_v165 (F := Ideal) x0 x1 x2 x3 x8 x9 x10 x11 = GraphGru.scaled x3 (val_main_v140 (F := Ideal) x0 x1 x2 x3 x8 x9 x10 x11) := rfl

/-- The candidate state. -/
theorem candidate_eq (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x3 : (⟨S100000x32, .f32⟩ : BufTy).Contents (Elt Ideal)) (x8 : (⟨S2x32x32, .f32⟩ : BufTy).Contents (Elt Ideal)) (x9 : (⟨S32, .f32⟩ : BufTy).Contents (Elt Ideal)) (x10 : (⟨S2x32x32, .f32⟩ : BufTy).Contents (Elt Ideal)) (x11 : (⟨S32, .f32⟩ : BufTy).Contents (Elt Ideal)) (x12 : (⟨S2x32x32, .f32⟩ : BufTy).Contents (Elt Ideal)) (x13 : (⟨S32, .f32⟩ : BufTy).Contents (Elt Ideal)) (x14 : (⟨S2x32x32, .f32⟩ : BufTy).Contents (Elt Ideal)) (x15 : (⟨S32, .f32⟩ : BufTy).Contents (Elt Ideal)) :
    val_main_v191 (F := Ideal) x0 x1 x2 x3 x8 x9 x10 x11 x12 x13 x14 x15 = GraphGru.candidate x0 (val_main_v154 (F := Ideal) x0 x1 x2) (val_main_v165 (F := Ideal) x0 x1 x2 x3 x8 x9 x10 x11) (val_main_v179 (F := Ideal) x0 x1 x2 x3 x8 x9 x10 x11) x12 x13 x14 x15 := by
  funext i
  obtain ⟨p, q, rfl⟩ : ∃ (p : Fin 100000) (q : Fin 32), i = ix2 p q := ⟨i 0, i 1, eq_ix2 i⟩
  have c1 : val_main_v164 (F := Ideal) x0 x1 x2 x12 x13 (ix2 p q) = _ := conv_ref x0 (val_main_v154 (F := Ideal) x0 x1 x2) x12 x13 p q
  have c2 : val_main_v189 (F := Ideal) x0 x1 x2 x3 x8 x9 x10 x11 x14 x15 (ix2 p q) = _ := conv_ref (val_main_v165 (F := Ideal) x0 x1 x2 x3 x8 x9 x10 x11) (val_main_v179 (F := Ideal) x0 x1 x2 x3 x8 x9 x10 x11) x14 x15 p q
  show Ideal.tanh (val_main_v164 (F := Ideal) x0 x1 x2 x12 x13 (ix2 p q) + val_main_v189 (F := Ideal) x0 x1 x2 x3 x8 x9 x10 x11 x14 x15 (ix2 p q)) = _
  rw [c1, c2]
  rfl

/-- The new state. -/
theorem state_eq (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x3 : (⟨S100000x32, .f32⟩ : BufTy).Contents (Elt Ideal)) (x4 : (⟨S2x32x32, .f32⟩ : BufTy).Contents (Elt Ideal)) (x5 : (⟨S32, .f32⟩ : BufTy).Contents (Elt Ideal)) (x6 : (⟨S2x32x32, .f32⟩ : BufTy).Contents (Elt Ideal)) (x7 : (⟨S32, .f32⟩ : BufTy).Contents (Elt Ideal)) (x8 : (⟨S2x32x32, .f32⟩ : BufTy).Contents (Elt Ideal)) (x9 : (⟨S32, .f32⟩ : BufTy).Contents (Elt Ideal)) (x10 : (⟨S2x32x32, .f32⟩ : BufTy).Contents (Elt Ideal)) (x11 : (⟨S32, .f32⟩ : BufTy).Contents (Elt Ideal)) (x12 : (⟨S2x32x32, .f32⟩ : BufTy).Contents (Elt Ideal)) (x13 : (⟨S32, .f32⟩ : BufTy).Contents (Elt Ideal)) (x14 : (⟨S2x32x32, .f32⟩ : BufTy).Contents (Elt Ideal)) (x15 : (⟨S32, .f32⟩ : BufTy).Contents (Elt Ideal)) :
    val_main_v196 (F := Ideal) x0 x1 x2 x3 x4 x5 x6 x7 x8 x9 x10 x11 x12 x13 x14 x15 = GraphGru.blend (val_main_v85 (F := Ideal) x0 x1 x2 x3 x4 x5 x6 x7) x3 (val_main_v191 (F := Ideal) x0 x1 x2 x3 x8 x9 x10 x11 x12 x13 x14 x15) := by
  funext i
  have h193 : val_main_v193 (F := Ideal) i = GraphGru.oneW := by rw [val_main_v193_apply]; rfl
  show val_main_v85 (F := Ideal) x0 x1 x2 x3 x4 x5 x6 x7 i * x3 i + (val_main_v193 (F := Ideal) i - val_main_v85 (F := Ideal) x0 x1 x2 x3 x4 x5 x6 x7 i) * val_main_v191 (F := Ideal) x0 x1 x2 x3 x8 x9 x10 x11 x12 x13 x14 x15 i = _
  rw [h193]
  rfl

/-- The head's output. -/
theorem out_eq (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x3 : (⟨S100000x32, .f32⟩ : BufTy).Contents (Elt Ideal)) (x4 : (⟨S2x32x32, .f32⟩ : BufTy).Contents (Elt Ideal)) (x5 : (⟨S32, .f32⟩ : BufTy).Contents (Elt Ideal)) (x6 : (⟨S2x32x32, .f32⟩ : BufTy).Contents (Elt Ideal)) (x7 : (⟨S32, .f32⟩ : BufTy).Contents (Elt Ideal)) (x8 : (⟨S2x32x32, .f32⟩ : BufTy).Contents (Elt Ideal)) (x9 : (⟨S32, .f32⟩ : BufTy).Contents (Elt Ideal)) (x10 : (⟨S2x32x32, .f32⟩ : BufTy).Contents (Elt Ideal)) (x11 : (⟨S32, .f32⟩ : BufTy).Contents (Elt Ideal)) (x12 : (⟨S2x32x32, .f32⟩ : BufTy).Contents (Elt Ideal)) (x13 : (⟨S32, .f32⟩ : BufTy).Contents (Elt Ideal)) (x14 : (⟨S2x32x32, .f32⟩ : BufTy).Contents (Elt Ideal)) (x15 : (⟨S32, .f32⟩ : BufTy).Contents (Elt Ideal)) (x16 : (⟨S32x4, .f32⟩ : BufTy).Contents (Elt Ideal)) (x17 : (⟨S4, .f32⟩ : BufTy).Contents (Elt Ideal)) :
    val_main_v201 (F := Ideal) x0 x1 x2 x3 x4 x5 x6 x7 x8 x9 x10 x11 x12 x13 x14 x15 x16 x17 = GraphGru.head (val_main_v196 (F := Ideal) x0 x1 x2 x3 x4 x5 x6 x7 x8 x9 x10 x11 x12 x13 x14 x15) x16 x17 := by
  funext i
  obtain ⟨p, q, rfl⟩ : ∃ (p : Fin 100000) (q : Fin 4), i = ix2 p q := ⟨i 0, i 1, eq_ix2 i⟩
  have hb : val_main_v200 (F := Ideal) x17 (ix2 p q) = x17 (ix1 q) := bias_head x17 p q
  have hd : val_main_v198 (F := Ideal) x0 x1 x2 x3 x4 x5 x6 x7 x8 x9 x10 x11 x12 x13 x14 x15 x16 (ix2 p q) = _ := dot_head (val_main_v197 (F := Ideal) x0 x1 x2 x3 x4 x5 x6 x7 x8 x9 x10 x11 x12 x13 x14 x15) x16 p q
  have hz : ∀ j, val_main_call2_v0 (F := Ideal) j = GraphGru.zeroW := fun j => by rw [val_main_call2_v0_apply]; rfl
  show val_main_v198 (F := Ideal) x0 x1 x2 x3 x4 x5 x6 x7 x8 x9 x10 x11 x12 x13 x14 x15 x16 (ix2 p q) + val_main_v200 (F := Ideal) x17 (ix2 p q) = _
  rw [hb, hd]
  unfold GraphGru.head
  refine congrArg (· + x17 (ix1 q)) (Finset.sum_congr rfl fun k _ => ?_)
  show max (val_main_v196 (F := Ideal) x0 x1 x2 x3 x4 x5 x6 x7 x8 x9 x10 x11 x12 x13 x14 x15 (ix2 p k)) (val_main_call2_v0 (F := Ideal) (ix2 p k)) * x16 (ix2 k q) = _
  rw [hz]

end Cert.ReferenceIdeal.Gates

end
-- ==== Proof.Results.lean ====
/-
  The kernel program's two results, identified with the reference's.

  The first region is entered with the arguments as launched and with the two aggregations the host computed, which are
  the reference's; so it leaves the reference's update gate and the reference's state scaled by the reference's reset
  gate. Between the regions the program aggregates that scaled state, as the reference does. The second region is entered
  with those arrays and the arguments; so it leaves the reference's new state and the reference's head output.
-/
import proofs.«404224_j77799037599894_1_alg».proof.Proof.KernelRun
import proofs.«404224_j77799037599894_1_alg».proof.Proof.GateBlocks
import proofs.«404224_j77799037599894_1_alg».proof.Proof.FinalBlocks
import proofs.«404224_j77799037599894_1_alg».proof.Proof.HostChain
import proofs.«404224_j77799037599894_1_alg».proof.Proof.RefGates

set_option maxRecDepth 16384

noncomputable section

namespace Cert.KernelIdeal.Results

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- After the first region its first output holds the reference's update gate. -/
theorem update_is_ref : W6 m ρ c (Proc.devRef .tc main_v59_0) = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 12).trans ((Gates.arr_update (V5 m ρ) c).trans ?_)
  show GraphGru.gate (W5 m ρ c (Proc.devRef .tc main_arg0)) (W5 m ρ c (Proc.devRef .tc main_v44)) (W5 m ρ c (Proc.devRef .tc main_arg3)) (W5 m ρ c (Proc.devRef .tc main_v58)) (W5 m ρ c (Proc.devRef .tc main_arg4)) (W5 m ρ c (Proc.devRef .tc main_arg5)) (W5 m ρ c (Proc.devRef .tc main_arg6)) (W5 m ρ c (Proc.devRef .tc main_arg7)) = _
  rw [HostChain.arg0_eq, HostChain.aggx_eq, HostChain.arg3_eq, HostChain.aggh_eq, HostChain.arg4_eq, HostChain.arg5_eq, HostChain.arg6_eq, HostChain.arg7_eq]
  exact (Cert.ReferenceIdeal.Gates.update_eq _ _ _ _ _ _ _ _).symm

/-- … and its third output the reference's state scaled by the reference's reset gate. -/
theorem scaled_is_ref : W6 m ρ c (Proc.devRef .tc main_v59_2) = Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) := by
  refine (W6_arr m ρ c 14).trans ((Gates.arr_scaled (V5 m ρ) c).trans ?_)
  show GraphGru.scaled (W5 m ρ c (Proc.devRef .tc main_arg3)) (GraphGru.gate (W5 m ρ c (Proc.devRef .tc main_arg0)) (W5 m ρ c (Proc.devRef .tc main_v44)) (W5 m ρ c (Proc.devRef .tc main_arg3)) (W5 m ρ c (Proc.devRef .tc main_v58)) (W5 m ρ c (Proc.devRef .tc main_arg8)) (W5 m ρ c (Proc.devRef .tc main_arg9)) (W5 m ρ c (Proc.devRef .tc main_arg10)) (W5 m ρ c (Proc.devRef .tc main_arg11))) = _
  rw [HostChain.arg0_eq, HostChain.aggx_eq, HostChain.arg3_eq, HostChain.aggh_eq, HostChain.arg8_eq, HostChain.arg9_eq, HostChain.arg10_eq, HostChain.arg11_eq]
  rw [Cert.ReferenceIdeal.Gates.scaled_eq, Cert.ReferenceIdeal.Gates.reset_eq, HostChain.ref_aggx_second, HostChain.ref_aggh_second]

/-- The new state of the arrays the second region is entered with is the reference's new state. -/
theorem entry_state :
    GraphGru.blend (W7 m ρ c (Proc.devRef .tc main_v59_0)) (W7 m ρ c (Proc.devRef .tc main_arg3)) (GraphGru.candidate (W7 m ρ c (Proc.devRef .tc main_arg0)) (W7 m ρ c (Proc.devRef .tc main_v44)) (W7 m ρ c (Proc.devRef .tc main_v59_2)) (W7 m ρ c (Proc.devRef .tc main_v73)) (W7 m ρ c (Proc.devRef .tc main_arg12)) (W7 m ρ c (Proc.devRef .tc main_arg13)) (W7 m ρ c (Proc.devRef .tc main_arg14)) (W7 m ρ c (Proc.devRef .tc main_arg15)))
      = Cert.ReferenceIdeal.Read.val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [HostChain.W7_v59_0, update_is_ref, HostChain.entry_arg3, HostChain.entry_arg0, HostChain.entry_aggx, HostChain.W7_v59_2, HostChain.entry_agg_scaled, scaled_is_ref, HostChain.entry_arg12, HostChain.entry_arg13, HostChain.entry_arg14, HostChain.entry_arg15]
  rw [Cert.ReferenceIdeal.Gates.state_eq, Cert.ReferenceIdeal.Gates.candidate_eq, HostChain.ref_aggx_third, HostChain.ref_last_agg]

/-- After the second region its first output holds the reference's new state. -/
theorem state_is_ref : W8 m ρ c (Proc.devRef .tc main_v74_0) = Cert.ReferenceIdeal.Read.val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W8_arr m ρ c 12).trans ((FinalState.arr_state (V7 m ρ) c).trans (entry_state m ρ c))

/-- … and its second output the reference's head output: the head of that state with the head's own weights. -/
theorem out_is_ref : W8 m ρ c (Proc.devRef .tc main_v74_1) = Cert.ReferenceIdeal.Read.val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W8_arr m ρ c 13).trans ((FinalState.arr_out (V7 m ρ) c).trans ?_)
  show GraphGru.head (GraphGru.blend (W7 m ρ c (Proc.devRef .tc main_v59_0)) (W7 m ρ c (Proc.devRef .tc main_arg3)) (GraphGru.candidate (W7 m ρ c (Proc.devRef .tc main_arg0)) (W7 m ρ c (Proc.devRef .tc main_v44)) (W7 m ρ c (Proc.devRef .tc main_v59_2)) (W7 m ρ c (Proc.devRef .tc main_v73)) (W7 m ρ c (Proc.devRef .tc main_arg12)) (W7 m ρ c (Proc.devRef .tc main_arg13)) (W7 m ρ c (Proc.devRef .tc main_arg14)) (W7 m ρ c (Proc.devRef .tc main_arg15)))) (W7 m ρ c (Proc.devRef .tc main_arg16)) (W7 m ρ c (Proc.devRef .tc main_arg17)) = _
  rw [entry_state, HostChain.entry_arg16, HostChain.entry_arg17]
  exact (Cert.ReferenceIdeal.Gates.out_eq _ _ _ _ _ _ _ _ _ _ _ _ _ _ _ _ _ _).symm

/-- The kernel program's run with its two results named: every weakly fair execution terminates, nothing faulting, with
    the head output and the new state at the reference's stages of the arguments, and the arguments unchanged. -/
theorem run : θ_run defs (onTc (τ := τ) (main (F := Ideal))) ⟨m, fun _ => 0, ρ⟩ (fun r => ∀ c : Dev nD,
      r.2.mem ((c.tc : Thread nD τ).loc main_v74_1) = Cert.ReferenceIdeal.Read.val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
      ∧ r.2.mem ((c.tc : Thread nD τ).loc main_v74_0) = Cert.ReferenceIdeal.Read.val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v74_1 (by decide))).trans (out_is_ref m ρ c),
     (h c _ (mem_uc main_v74_0 (by decide))).trans (state_is_ref m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c),
     (h c _ (mem_uc main_arg16 (by decide))).trans (W8_main_arg16 m ρ c),
     (h c _ (mem_uc main_arg17 (by decide))).trans (W8_main_arg17 m ρ c)⟩)
    (run_all m ρ)

end Cert.KernelIdeal.Results

end
-- ==== Proof.lean ====
/-
  The certificate of one step of a graph-convolutional gated recurrent unit with a linear head: a program that computes
  the gates, the candidate state, the new state and the head in two row-blocked kernel regions, against a reference that
  computes them on whole arrays.

  Both programs start from the same host computation on the same arguments: the normalised edge weights and, from them,
  the aggregated neighbour features of the input and of the state. The first region computes, row block by row block, the
  update gate, the reset gate and the state scaled by the reset gate; each is a function of one node's row, so the blocks
  together are the reference's whole-array stages. The program then aggregates the scaled state as the reference does, and
  the second region computes the candidate state, the new state and the head, again row by row. At the ideal reading every
  product is an exact sum, the logistic function written out as 1 / (1 + e^(-x)) is the logistic function, and no law of
  arithmetic beyond that is used: the two programs compute the same sums in the same grouping, so finiteness of the inputs
  is never needed.

  The three frames are the generated ones (the reference's is its generated run with the results dropped); the idealized
  kernel program is the kernel program's own text read at the ideal instance, so nothing is owed for it.
-/
import proofs.«404224_j77799037599894_1_alg».proof.Defs
import proofs.«404224_j77799037599894_1_alg».proof.Proof.Gen.Kernel
import proofs.«404224_j77799037599894_1_alg».proof.Proof.Gen.Kernel.Skeleton
import proofs.«404224_j77799037599894_1_alg».proof.Proof.Gen.Kernel.Launch
import proofs.«404224_j77799037599894_1_alg».proof.Proof.Gen.Kernel.Points
import proofs.«404224_j77799037599894_1_alg».proof.Proof.Gen.Kernel.Frame
import proofs.«404224_j77799037599894_1_alg».proof.Proof.Gen.KernelIdeal
import proofs.«404224_j77799037599894_1_alg».proof.Proof.Gen.KernelIdeal.Skeleton
import proofs.«404224_j77799037599894_1_alg».proof.Proof.Gen.KernelIdeal.Launch
import proofs.«404224_j77799037599894_1_alg».proof.Proof.Gen.KernelIdeal.Points
import proofs.«404224_j77799037599894_1_alg».proof.Proof.Gen.KernelIdeal.Frame
import proofs.«404224_j77799037599894_1_alg».proof.Proof.Gen.ReferenceIdeal
import proofs.«404224_j77799037599894_1_alg».proof.Proof.Gen.Pre_finite_inputs
import proofs.«404224_j77799037599894_1_alg».proof.Proof.RefStages
import proofs.«404224_j77799037599894_1_alg».proof.Proof.Results
import Idealize.ShloMosaic.Adequacy
import Idealize.ShloMosaic.Init

set_option maxRecDepth 16384

noncomputable section

namespace Cert.Proof

open Idealize.ShloMosaic Idealize.SL.Sem

/-- The kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

section Agreement

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The reference's head output of its own arguments is the same stage of the kernel program's arguments, when the two
    memories agree on them. -/
theorem ref_out_agrees
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v201 m' c = Cert.ReferenceIdeal.Read.val_main_v201 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
  obtain ⟨h0, h1, h2, h3, h4, h5, h6, h7, h8, h9, h10, h11, h12, h13, h14, h15, h16, h17⟩ := hagree
  refine (Cert.ReferenceIdeal.Read.val_main_v201_eq m' c).trans ?_
  rw [h0, h1, h2, h3, h4, h5, h6, h7, h8, h9, h10, h11, h12, h13, h14, h15, h16, h17]

/-- The same for the new state. -/
theorem ref_state_agrees
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v196 m' c = Cert.ReferenceIdeal.Read.val_main_v196 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  obtain ⟨h0, h1, h2, h3, h4, h5, h6, h7, h8, h9, h10, h11, h12, h13, h14, h15, h16, h17⟩ := hagree
  refine (Cert.ReferenceIdeal.Read.val_main_v196_eq m' c).trans ?_
  rw [h0, h1, h2, h3, h4, h5, h6, h7, h8, h9, h10, h11, h12, h13, h14, h15]

end Agreement

set_option maxHeartbeats 1000000 in
/-- From memories that agree on the arguments, both programs end with the reference's head output and new state of those
    arguments: the kernel program by the two regions' values, the reference by its own run. -/
theorem algebraic : Cert.algebraic_KernelIdeal_ReferenceIdeal := fun m ρ m' ρ' _ hagree =>
  ⟨fun c => Cert.ReferenceIdeal.Read.val_main_v201 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.Read.val_main_v196 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.Results.run m ρ,
    (θ_run Cert.ReferenceIdeal.defs _ _).mono (fun r h c =>
      ⟨(h c).1.trans (ref_out_agrees m m' c (hagree c)), (h c).2.1.trans (ref_state_agrees m m' c (hagree c)), (h c).2.2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
